-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S512x512x21x21 : Shape := ⟨4, ![512, 512, 21, 21]⟩
abbrev S512x21 : Shape := ⟨2, ![512, 21]⟩
abbrev S_ : Shape := ⟨0, ![]⟩

class Facts : Prop where
  bcast_S_S512x512x21x21 : S_.BroadcastsInDim S512x512x21x21 (![] : Fin 0 → Fin S512x512x21x21.rank)
  reducesTo_S512x512x21x21_S_d0_1_2_3 : S512x512x21x21.ReducesTo [0, 1, 2, 3] S_
  h_S_ : 0 < S_.numel
  bcast_S_S512x21 : S_.BroadcastsInDim S512x21 (![] : Fin 0 → Fin S512x21.rank)
  reducesTo_S512x21_S_d0_1 : S512x21.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S256x512 32) (main_arg1 : FVec F S512x512x21x21 .f32) (main_arg2 : FVec F S512x21 .f32) : IVec S_ 1 :=
  let main_v0 : FVec F S512x512x21x21 .f32 := Host.absf main_arg1
  let main_cst : FVec F S_ .f32 := constant S_ .f32 0x7F800000#32
  let main_v1 : FVec F S512x512x21x21 .f32 := broadcastInDim S512x512x21x21 ![] bcast_S_S512x512x21x21 main_cst
  let main_v2 : IVec S512x512x21x21 1 := cmpf .olt main_v0 main_v1
  let main_c : IVec S_ 1 := constantI S_ 1 1#1
  let main_v3 : IVec S_ 1 := (fun x v => Host.reduce IntOp.andi x v reducesTo_S512x512x21x21_S_d0_1_2_3 h_S_) main_v2 main_c
  let main_v4 : FVec F S512x21 .f32 := Host.absf main_arg2
  let main_cst_0 : FVec F S_ .f32 := constant S_ .f32 0x7F800000#32
  let main_v5 : FVec F S512x21 .f32 := broadcastInDim S512x21 ![] bcast_S_S512x21 main_cst_0
  let main_v6 : IVec S512x21 1 := cmpf .olt main_v4 main_v5
  let main_c_1 : IVec S_ 1 := constantI S_ 1 1#1
  let main_v7 : IVec S_ 1 := (fun x v => Host.reduce IntOp.andi x v reducesTo_S512x21_S_d0_1 h_S_) main_v6 main_c_1
  let main_v8 : IVec S_ 1 := andi main_v3 main_v7
  let main_c_2 : IVec S_ 32 := constantI S_ 32 0#32
  let main_v9 : IVec S256x512 32 := broadcastInDim S256x512 ![] bcast_S_S256x512 main_c_2
  let main_v10 : IVec S256x512 1 := cmpi .sge main_arg0 main_v9
  let main_c_3 : IVec S_ 1 := constantI S_ 1 1#1
  let main_v11 : IVec S_ 1 := (fun x v => Host.reduce IntOp.andi x v reducesTo_S256x512_S_d0_1 h_S_) main_v10 main_c_3
  let main_v12 : IVec S_ 1 := andi main_v8 main_v11
  let main_c_4 : IVec S_ 32 := constantI S_ 32 21#32
  let main_v13 : IVec S256x512 32 := broadcastInDim S256x512 ![] bcast_S_S256x512 main_c_4
  let main_v14 : IVec S256x512 1 := cmpi .slt main_arg0 main_v13
  let main_c_5 : IVec S_ 1 := constantI S_ 1 1#1
  let main_v15 : IVec S_ 1 := (fun x v => Host.reduce IntOp.andi x v reducesTo_S256x512_S_d0_1 h_S_) main_v14 main_c_5
  fn_part1 (F := F) main_v12 main_v15
-- ==== Kernel.lean ====
abbrev S256x512 : Shape := ⟨2, ![256, 512]⟩
abbrev S512x512x21x21 : Shape := ⟨4, ![512, 512, 21, 21]⟩
abbrev S512x21 : Shape := ⟨2, ![512, 21]⟩
abbrev S_ : Shape := ⟨0, ![]⟩
abbrev S512x21x512x21 : Shape := ⟨4, ![512, 21, 512, 21]⟩
abbrev S10752x10752 : Shape := ⟨2, ![10752, 10752]⟩
abbrev S256x512x1 : Shape := ⟨3, ![256, 512, 1]⟩
abbrev S1x1x21 : Shape := ⟨3, ![1, 1, 21]⟩
abbrev S256x512x21 : Shape := ⟨3, ![256, 512, 21]⟩
abbrev S512x21x256 : Shape := ⟨3, ![512, 21, 256]⟩
abbrev S10752x256 : Shape := ⟨2, ![10752, 256]⟩
abbrev S4x1x256 : Shape := ⟨3, ![4, 1, 256]⟩
abbrev S672x2688 : Shape := ⟨2, ![672, 2688]⟩
abbrev S1x1x256 : Shape := ⟨3, ![1, 1, 256]⟩
abbrev S2688x256 : Shape := ⟨2, ![2688, 256]⟩
abbrev S672x256 : Shape := ⟨2, ![672, 256]⟩
abbrev S256 : Shape := ⟨1, ![256]⟩
abbrev S4x256 : Shape := ⟨2, ![4, 256]⟩
abbrev S1x512x21 : Shape := ⟨3, ![1, 512, 21]⟩
abbrev S256x512x1x1 : Shape := ⟨4, ![256, 512, 1, 1]⟩
abbrev S1 : Shape := ⟨1, ![1]⟩
abbrev S1x1x1x1 : Shape := ⟨4, ![1, 1, 1, 1]⟩

abbrev nBuf : Space → Nat
  | .hbm => 58
  | .vmem => 6
  | .smem => 0
  | _ => 0

abbrev bufTy : (tb : Table) → Fin (tcTables nBuf tb) → BufTy
  | .hbm, ⟨0, _⟩ => ⟨S256x512, .i32⟩
  | .hbm, ⟨1, _⟩ => ⟨S512x512x21x21, .f32⟩
  | .hbm, ⟨2, _⟩ => ⟨S512x21, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S256x512, .i32⟩
  | .hbm, ⟨7, _⟩ => ⟨S256x512, .i32⟩
  | .hbm, ⟨8, _⟩ => ⟨S_, .i32⟩
  | .hbm, ⟨9, _⟩ => ⟨S256x512, .i32⟩
  | .hbm, ⟨10, _⟩ => ⟨S256x512, .i32⟩
  | .hbm, ⟨11, _⟩ => ⟨S512x21x512x21, .f32⟩
  | .hbm, ⟨12, _⟩ => ⟨S10752x10752, .f32⟩
  | .hbm, ⟨13, _⟩ => ⟨S10752x10752, .bf16⟩
  | .hbm, ⟨14, _⟩ => ⟨S256x512x1, .i32⟩
  | .hbm, ⟨15, _⟩ => ⟨S1x1x21, .i32⟩
  | .hbm, ⟨16, _⟩ => ⟨S256x512x21, .i32⟩
  | .hbm, ⟨17, _⟩ => ⟨S256x512x21, .i32⟩
  | .hbm, ⟨18, _⟩ => ⟨S256x512x21, .i1⟩
  | .hbm, ⟨19, _⟩ => ⟨S256x512x21, .bf16⟩
  | .hbm, ⟨20, _⟩ => ⟨S512x21x256, .bf16⟩
  | .hbm, ⟨21, _⟩ => ⟨S10752x256, .bf16⟩
  | .hbm, ⟨22, _⟩ => ⟨S4x1x256, .f32⟩
  | .hbm, ⟨23, _⟩ => ⟨S4x256, .f32⟩
  | .hbm, ⟨24, _⟩ => ⟨S_, .f32⟩
  | .hbm, ⟨25, _⟩ => ⟨S256, .f32⟩
  | .hbm, ⟨26, _⟩ => ⟨S1x512x21, .f32⟩
  | .hbm, ⟨27, _⟩ => ⟨S256x512x1, .i32⟩
  | .hbm, ⟨28, _⟩ => ⟨S_, .i32⟩
  | .hbm, ⟨29, _⟩ => ⟨S256x512x1, .i32⟩
  | .hbm, ⟨30, _⟩ => ⟨S256x512x1, .i1⟩
  | .hbm, ⟨31, _⟩ => ⟨S_, .i32⟩
  | .hbm, ⟨32, _⟩ => ⟨S256x512x1, .i32⟩
  | .hbm, ⟨33, _⟩ => ⟨S256x512x1, .i32⟩
  | .hbm, ⟨34, _⟩ => ⟨S256x512x1, .i32⟩
  | .hbm, ⟨35, _⟩ => ⟨S256x512x1x1, .i32⟩
  | .hbm, ⟨36, _⟩ => ⟨S512x21, .f32⟩
  | .hbm, ⟨37, _⟩ => ⟨S1, .i32⟩
  | .hbm, ⟨38, _⟩ => ⟨S_, .i32⟩
  | .hbm, ⟨39, _⟩ => ⟨S256x512x1x1, .i32⟩
  | .hbm, ⟨40, _⟩ => ⟨S256x512x1x1, .i1⟩
  | .hbm, ⟨41, _⟩ => ⟨S1x1x1x1, .i32⟩
  | .hbm, ⟨42, _⟩ => ⟨S256x512x1x1, .i32⟩
  | .hbm, ⟨43, _⟩ => ⟨S256x512x1x1, .i1⟩
  | .hbm, ⟨44, _⟩ => ⟨S256x512x1x1, .i1⟩
  | .hbm, ⟨45, _⟩ => ⟨S_, .i1⟩
  | .hbm, ⟨46, _⟩ => ⟨S256x512x1, .i1⟩
  | .hbm, ⟨47, _⟩ => ⟨S256x512x1, .f32⟩
  | .hbm, ⟨48, _⟩ => ⟨S_, .f32⟩
  | .hbm, ⟨49, _⟩ => ⟨S256x512x1, .f32⟩
  | .hbm, ⟨50, _⟩ => ⟨S256x512x1, .f32⟩
  | .hbm, ⟨51, _⟩ => ⟨S256x512, .f32⟩
  | .hbm, ⟨52, _⟩ => ⟨S_, .f32⟩
  | .hbm, ⟨53, _⟩ => ⟨S256, .f32⟩
  | .hbm, ⟨54, _⟩ => ⟨S_, .f32⟩
  | .hbm, ⟨55, _⟩ => ⟨S256, .f32⟩
  | .hbm, ⟨56, _⟩ => ⟨S256, .f32⟩
  | .hbm, ⟨57, _⟩ => ⟨S256, .f32⟩
  | .local _ .vmem, ⟨0, _⟩ => ⟨S10752x256, .bf16⟩
  | .local _ .vmem, ⟨1, _⟩ => ⟨S672x2688, .bf16⟩
  | .local _ .vmem, ⟨2, _⟩ => ⟨S672x2688, .bf16⟩
  | .local _ .vmem, ⟨3, _⟩ => ⟨S1x1x256, .f32⟩
  | .local _ .vmem, ⟨4, _⟩ => ⟨S1x1x256, .f32⟩
  | .local _ .vmem, ⟨5, _⟩ => ⟨S2688x256, .f32⟩
  | _, _ => ⟨S256x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call2_c : Ref sig .tc := ⟨.hbm, 28, rfl⟩
abbrev main_call2_v0 : Ref sig .tc := ⟨.hbm, 29, rfl⟩
abbrev main_call2_v1 : Ref sig .tc := ⟨.hbm, 30, rfl⟩
abbrev main_call2_c_0 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_v6 : Ref sig .tc := ⟨.hbm, 36, rfl⟩
abbrev main_call2_c_1 : Ref sig .tc := ⟨.hbm, 37, rfl⟩
abbrev main_call2_c_2 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_v12 : Ref sig .tc := ⟨.hbm, 44, rfl⟩
abbrev main_call2_c_3 : Ref sig .tc := ⟨.hbm, 45, rfl⟩
abbrev main_call2_v13 : Ref sig .tc := ⟨.hbm, 46, rfl⟩
abbrev main_call2_v14 : Ref sig .tc := ⟨.hbm, 47, rfl⟩
abbrev main_call2_cst : Ref sig .tc := ⟨.hbm, 48, rfl⟩
abbrev main_call2_v15 : Ref sig .tc := ⟨.hbm, 49, rfl⟩
abbrev main_v12 : Ref sig .tc := ⟨.hbm, 50, rfl⟩
abbrev main_v13 : Ref sig .tc := ⟨.hbm, 51, rfl⟩
abbrev main_cst_1 : Ref sig .tc := ⟨.hbm, 52, rfl⟩
abbrev main_v14 : Ref sig .tc := ⟨.hbm, 53, rfl⟩
abbrev main_cst_2 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c672_i32 : BitVec 32 := 672#32
  let v3 : BitVec 32 := Scalar.muli arg1 c672_i32
  v3
def k0_off1 (i : grid0.Coords) : Fin 2 → Nat :=
  let arg1 : BitVec 32 := BitVec.ofNat 32 (i 1).val
  let c672_i32 : BitVec 32 := 672#32
  let v3 : BitVec 32 := Scalar.muli arg1 c672_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_7 : BitVec 32 := 0#32
  let v18 : BitVec 1 := Scalar.cmpi .ne v17 c0_i32_7
  v18

def k0_mult2 (i : grid0.Coords) : BitVec 32 :=
  let arg0 : BitVec 32 := BitVec.ofNat 32 (i 0).val
  let c2688_i32 : BitVec 32 := 2688#32
  let v19 : BitVec 32 := Scalar.muli arg0 c2688_i32
  v19
def k0_off2 (i : grid0.Coords) : Fin 2 → Nat :=
  let arg0 : BitVec 32 := BitVec.ofNat 32 (i 0).val
  let c2688_i32 : BitVec 32 := 2688#32
  let v19 : BitVec 32 := Scalar.muli arg0 c2688_i32
  let v20 : BitVec 32 := v19
  let v21 : Index := Scalar.indexCast v20
  let c0_8 : Index := 0#32
  ![v21.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S10752x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S672x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S256x512 : S_.BroadcastsInDim S256x512 (![] : Fin 0 → Fin S256x512.rank)
  transposes_S512x512x21x21_S512x21x512x21_0_2_1_3 : S512x512x21x21.Transposes [0, 2, 1, 3] S512x21x512x21
  shapeCasts_S512x21x512x21_S10752x10752 : S512x21x512x21.ShapeCasts S10752x10752
  bitsLt_bf16_f32 : FTy.bits .bf16 < FTy.bits .f32
  bcast_S256x512_S256x512x1_0_1 : S256x512.BroadcastsInDim S256x512x1 (![0, 1] : Fin 2 → Fin S256x512x1.rank)
  bcast_S256x512x1_S256x512x21_0_1_2 : S256x512x1.BroadcastsInDim S256x512x21 (![0, 1, 2] : Fin 3 → Fin S256x512x21.rank)
  bcast_S1x1x21_S256x512x21_0_1_2 : S1x1x21.BroadcastsInDim S256x512x21 (![0, 1, 2] : Fin 3 → Fin S256x512x21.rank)
  transposes_S256x512x21_S512x21x256_1_2_0 : S256x512x21.Transposes [1, 2, 0] S512x21x256
  shapeCasts_S512x21x256_S10752x256 : S512x21x256.ShapeCasts S10752x256
  inb_S2688x256_S2688x256_0_0 : ∀ a, (![0, 0] : Fin 2 → Nat) a + S2688x256.size a ≤ S2688x256.size a
  h_S2688x256 : 0 < S2688x256.numel
  shapeCasts_S2688x256_S2688x256 : S2688x256.ShapeCasts S2688x256
  h_S672x256 : 0 < S672x256.numel
  shapeCasts_S672x256_S672x256 : S672x256.ShapeCasts S672x256
  inb_S672x2688_S672x2688_0_0 : ∀ a, (![0, 0] : Fin 2 → Nat) a + S672x2688.size a ≤ S672x2688.size a
  h_S672x2688 : 0 < S672x2688.numel
  shapeCasts_S672x2688_S672x2688 : S672x2688.ShapeCasts S672x2688
  reduces_S2688x256_S256 : S2688x256.Reduces [0] S256
  shapeCasts_S256_S1x1x256 : S256.ShapeCasts S1x1x256
  inb_S1x1x256_S1x1x256_0_0_0 : ∀ a, (![0, 0, 0] : Fin 3 → Nat) a + S1x1x256.size a ≤ S1x1x256.size a
  h_S1x1x256 : 0 < S1x1x256.numel
  shapeCasts_S4x1x256_S4x256 : S4x1x256.ShapeCasts S4x256
  reducesTo_S4x256_S256_d0 : S4x256.ReducesTo [0] S256
  h_S_ : 0 < S_.numel
  bcast_S512x21_S1x512x21_1_2 : S512x21.BroadcastsInDim S1x512x21 (![1, 2] : Fin 2 → Fin S1x512x21.rank)
  bcast_S_S256x512x1 : S_.BroadcastsInDim S256x512x1 (![] : Fin 0 → Fin S256x512x1.rank)
  shapeCasts_S256x512x1_S256x512x1x1 : S256x512x1.ShapeCasts S256x512x1x1
  shapeCasts_S1x512x21_S512x21 : S1x512x21.ShapeCasts S512x21
  bcast_S_S256x512x1x1 : S_.BroadcastsInDim S256x512x1x1 (![] : Fin 0 → Fin S256x512x1x1.rank)
  bcast_S1_S1x1x1x1_3 : S1.BroadcastsInDim S1x1x1x1 (![3] : Fin 1 → Fin S1x1x1x1.rank)
  bcast_S1x1x1x1_S256x512x1x1_0_1_2_3 : S1x1x1x1.BroadcastsInDim S256x512x1x1 (![0, 1, 2, 3] : Fin 4 → Fin S256x512x1x1.rank)
  reducesTo_S256x512x1x1_S256x512x1_d3 : S256x512x1x1.ReducesTo [3] S256x512x1
  shapeCasts_S256x512x1_S256x512 : S256x512x1.ShapeCasts S256x512
  reducesTo_S256x512_S256_d1 : S256x512.ReducesTo [1] S256
  bcast_S_S256 : S_.BroadcastsInDim S256 (![] : Fin 0 → Fin S256.rank)
  dot_S672x2688_S672x256_S2688x256_0_0_1_1_n_n_wf : DotDims.WF S672x2688 S672x256 S2688x256 [0] [0] [1] [1] [] []
  gather_S512x21_S256x512x1x1_S256x512x1_n_1_0_1_1_3_11_wf : GatherDims.WF S512x21 S256x512x1x1 S256x512x1 [] [1] [0] [1] [1] 3 ![1, 1]
  hrank0 : 0 < grid0.rank
  k0_mult1_dvd : ∀ i : grid0.Coords, 16 ∣ (k0_mult1 i).toNat
  k0_off1_inb : ∀ i : grid0.Coords, ∀ a, (k0_off1 i) a + S672x256.size a ≤ S10752x256.size a
  k0_mult2_dvd : ∀ i : grid0.Coords, ∀ (k0_h2 : k0_cond2 i = 1#1), 16 ∣ (k0_mult2 i).toNat
  k0_off2_inb : ∀ i : grid0.Coords, ∀ (k0_h2 : k0_cond2 i = 1#1), ∀ a, (k0_off2 i) a + S2688x256.size a ≤ S10752x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10752x256.size a ≤ S10752x256.size a
  hwx0_0 : ∀ i : grid0.Coords, EltTy.bits .bf16 = 32 ∨ (Rect.block (s := S10752x256) S10752x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S672x2688.size a ≤ S10752x10752.size a
  hwx0_1 : ∀ i : grid0.Coords, EltTy.bits .bf16 = 32 ∨ (Rect.block (s := S10752x10752) S672x2688.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S4x1x256.size a
  hwx0_2 : ∀ i : grid0.Coords, EltTy.bits .f32 = 32 ∨ (Rect.block (s := S4x1x256) S1x1x256.size (cc0_transform_2 i) (hinb0_2 i)).WholeWords (EltTy.packing .f32)

variable [Facts₀]

def dot_S672x2688_S672x256_S2688x256_0_0_1_1_n_n : DotDims S672x2688 S672x256 S2688x256 where
  lhsContracting := [0]
  rhsContracting := [0]
  lhsNonContracting := [1]
  rhsNonContracting := [1]
  lhsBatch := []
  rhsBatch := []
  wf := dot_S672x2688_S672x256_S2688x256_0_0_1_1_n_n_wf
def gather_S512x21_S256x512x1x1_S256x512x1_n_1_0_1_1_3_11 : GatherDims S512x21 S256x512x1x1 S256x512x1 where
  offsetDims := []
  collapsedSliceDims := [1]
  operandBatchingDims := [0]
  startIndicesBatchingDims := [1]
  startIndexMap := [1]
  indexVectorDim := 3
  sliceSizes := ![1, 1]
  wf := gather_S512x21_S256x512x1x1_S256x512x1_n_1_0_1_1_3_11_wf

abbrev win0_0 : Pipeline.Window sig grid0 :=
  Pipeline.Window.ofSpec (Memref.whole main_v6) S10752x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S672x2688.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x512 : Shape := ⟨2, ![256, 512]⟩
abbrev S512x512x21x21 : Shape := ⟨4, ![512, 512, 21, 21]⟩
abbrev S512x21 : Shape := ⟨2, ![512, 21]⟩
abbrev S512 : Shape := ⟨1, ![512]⟩
abbrev S512x1 : Shape := ⟨2, ![512, 1]⟩
abbrev S1x512 : Shape := ⟨2, ![1, 512]⟩
abbrev S256x512x1 : Shape := ⟨3, ![256, 512, 1]⟩
abbrev S256x1x512 : Shape := ⟨3, ![256, 1, 512]⟩
abbrev S_ : Shape := ⟨0, ![]⟩
abbrev S512x512 : Shape := ⟨2, ![512, 512]⟩
abbrev S256x512x512 : Shape := ⟨3, ![256, 512, 512]⟩
abbrev S512x512x1 : Shape := ⟨3, ![512, 512, 1]⟩
abbrev S256x512x512x1 : Shape := ⟨4, ![256, 512, 512, 1]⟩
abbrev S256x512x512x4 : Shape := ⟨4, ![256, 512, 512, 4]⟩
abbrev S256 : Shape := ⟨1, ![256]⟩
abbrev S1x512x21 : Shape := ⟨3, ![1, 512, 21]⟩
abbrev S256x512x1x1 : Shape := ⟨4, ![256, 512, 1, 1]⟩
abbrev S1 : Shape := ⟨1, ![1]⟩
abbrev S1x1x1x1 : Shape := ⟨4, ![1, 1, 1, 1]⟩

abbrev nBuf : Space → Nat
  | .hbm => 88
  | .vmem => 0
  | .smem => 0
  | _ => 0

abbrev bufTy : (tb : Table) → Fin (tcTables nBuf tb) → BufTy
  | .hbm, ⟨0, _⟩ => ⟨S256x512, .i32⟩
  | .hbm, ⟨1, _⟩ => ⟨S512x512x21x21, .f32⟩
  | .hbm, ⟨2, _⟩ => ⟨S512x21, .f32⟩
  | .hbm, ⟨3, _⟩ => ⟨S512, .i32⟩
  | .hbm, ⟨4, _⟩ => ⟨S512x1, .i32⟩
  | .hbm, ⟨5, _⟩ => ⟨S512, .i32⟩
  | .hbm, ⟨6, _⟩ => ⟨S1x512, .i32⟩
  | .hbm, ⟨7, _⟩ => ⟨S256x512x1, .i32⟩
  | .hbm, ⟨8, _⟩ => ⟨S256x1x512, .i32⟩
  | .hbm, ⟨9, _⟩ => ⟨S_, .i32⟩
  | .hbm, ⟨10, _⟩ => ⟨S512x1, .i32⟩
  | .hbm, ⟨11, _⟩ => ⟨S512x1, .i1⟩
  | .hbm, ⟨12, _⟩ => ⟨S_, .i32⟩
  | .hbm, ⟨13, _⟩ => ⟨S512x1, .i32⟩
  | .hbm, ⟨14, _⟩ => ⟨S512x1, .i32⟩
  | .hbm, ⟨15, _⟩ => ⟨S512x1, .i32⟩
  | .hbm, ⟨16, _⟩ => ⟨S_, .i32⟩
  | .hbm, ⟨17, _⟩ => ⟨S1x512, .i32⟩
  | .hbm, ⟨18, _⟩ => ⟨S1x512, .i1⟩
  | .hbm, ⟨19, _⟩ => ⟨S_, .i32⟩
  | .hbm, ⟨20, _⟩ => ⟨S1x512, .i32⟩
  | .hbm, ⟨21, _⟩ => ⟨S1x512, .i32⟩
  | .hbm, ⟨22, _⟩ => ⟨S1x512, .i32⟩
  | .hbm, ⟨23, _⟩ => ⟨S_, .i32⟩
  | .hbm, ⟨24, _⟩ => ⟨S256x512x1, .i32⟩
  | .hbm, ⟨25, _⟩ => ⟨S256x512x1, .i1⟩
  | .hbm, ⟨26, _⟩ => ⟨S_, .i32⟩
  | .hbm, ⟨27, _⟩ => ⟨S256x512x1, .i32⟩
  | .hbm, ⟨28, _⟩ => ⟨S256x512x1, .i32⟩
  | .hbm, ⟨29, _⟩ => ⟨S256x512x1, .i32⟩
  | .hbm, ⟨30, _⟩ => ⟨S_, .i32⟩
  | .hbm, ⟨31, _⟩ => ⟨S256x1x512, .i32⟩
  | .hbm, ⟨32, _⟩ => ⟨S256x1x512, .i1⟩
  | .hbm, ⟨33, _⟩ => ⟨S_, .i32⟩
  | .hbm, ⟨34, _⟩ => ⟨S256x1x512, .i32⟩
  | .hbm, ⟨35, _⟩ => ⟨S256x1x512, .i32⟩
  | .hbm, ⟨36, _⟩ => ⟨S256x1x512, .i32⟩
  | .hbm, ⟨37, _⟩ => ⟨S512x512, .i32⟩
  | .hbm, ⟨38, _⟩ => ⟨S512x512, .i32⟩
  | .hbm, ⟨39, _⟩ => ⟨S256x512x512, .i32⟩
  | .hbm, ⟨40, _⟩ => ⟨S256x512x512, .i32⟩
  | .hbm, ⟨41, _⟩ => ⟨S512x512x1, .i32⟩
  | .hbm, ⟨42, _⟩ => ⟨S512x512x1, .i32⟩
  | .hbm, ⟨43, _⟩ => ⟨S256x512x512x1, .i32⟩
  | .hbm, ⟨44, _⟩ => ⟨S256x512x512x1, .i32⟩
  | .hbm, ⟨45, _⟩ => ⟨S256x512x512x1, .i32⟩
  | .hbm, ⟨46, _⟩ => ⟨S256x512x512x1, .i32⟩
  | .hbm, ⟨47, _⟩ => ⟨S256x512x512x4, .i32⟩
  | .hbm, ⟨48, _⟩ => ⟨S256x512x512, .f32⟩
  | .hbm, ⟨49, _⟩ => ⟨S_, .f32⟩
  | .hbm, ⟨50, _⟩ => ⟨S256, .f32⟩
  | .hbm, ⟨51, _⟩ => ⟨S_, .f32⟩
  | .hbm, ⟨52, _⟩ => ⟨S256, .f32⟩
  | .hbm, ⟨53, _⟩ => ⟨S256, .f32⟩
  | .hbm, ⟨54, _⟩ => ⟨S1x512x21, .f32⟩
  | .hbm, ⟨55, _⟩ => ⟨S256x512x1, .i32⟩
  | .hbm, ⟨56, _⟩ => ⟨S_, .i32⟩
  | .hbm, ⟨57, _⟩ => ⟨S256x512x1, .i32⟩
  | .hbm, ⟨58, _⟩ => ⟨S256x512x1, .i1⟩
  | .hbm, ⟨59, _⟩ => ⟨S_, .i32⟩
  | .hbm, ⟨60, _⟩ => ⟨S256x512x1, .i32⟩
  | .hbm, ⟨61, _⟩ => ⟨S256x512x1, .i32⟩
  | .hbm, ⟨62, _⟩ => ⟨S256x512x1, .i32⟩
  | .hbm, ⟨63, _⟩ => ⟨S256x512x1x1, .i32⟩
  | .hbm, ⟨64, _⟩ => ⟨S512x21, .f32⟩
  | .hbm, ⟨65, _⟩ => ⟨S1, .i32⟩
  | .hbm, ⟨66, _⟩ => ⟨S_, .i32⟩
  | .hbm, ⟨67, _⟩ => ⟨S256x512x1x1, .i32⟩
  | .hbm, ⟨68, _⟩ => ⟨S256x512x1x1, .i1⟩
  | .hbm, ⟨69, _⟩ => ⟨S1x1x1x1, .i32⟩
  | .hbm, ⟨70, _⟩ => ⟨S256x512x1x1, .i32⟩
  | .hbm, ⟨71, _⟩ => ⟨S256x512x1x1, .i1⟩
  | .hbm, ⟨72, _⟩ => ⟨S256x512x1x1, .i1⟩
  | .hbm, ⟨73, _⟩ => ⟨S_, .i1⟩
  | .hbm, ⟨74, _⟩ => ⟨S256x512x1, .i1⟩
  | .hbm, ⟨75, _⟩ => ⟨S256x512x1, .f32⟩
  | .hbm, ⟨76, _⟩ => ⟨S_, .f32⟩
  | .hbm, ⟨77, _⟩ => ⟨S256x512x1, .f32⟩
  | .hbm, ⟨78, _⟩ => ⟨S256x512x1, .f32⟩
  | .hbm, ⟨79, _⟩ => ⟨S256x512, .f32⟩
  | .hbm, ⟨80, _⟩ => ⟨S_, .f32⟩
  | .hbm, ⟨81, _⟩ => ⟨S256, .f32⟩
  | .hbm, ⟨82, _⟩ => ⟨S256, .f32⟩
  | .hbm, ⟨83, _⟩ => ⟨S256, .f32⟩
  | .hbm, ⟨84, _⟩ => ⟨S256, .f32⟩
  | .hbm, ⟨85, _⟩ => ⟨S_, .f32⟩
  | .hbm, ⟨86, _⟩ => ⟨S256, .f32⟩
  | .hbm, ⟨87, _⟩ => ⟨S256, .f32⟩
  | _, _ => ⟨S256x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_c_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call0_c : Ref sig .tc := ⟨.hbm, 56, rfl⟩
abbrev main_call0_v0 : Ref sig .tc := ⟨.hbm, 57, rfl⟩
abbrev main_call0_v1 : Ref sig .tc := ⟨.hbm, 58, rfl⟩
abbrev main_call0_c_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_c_1 : Ref sig .tc := ⟨.hbm, 65, rfl⟩
abbrev main_call0_c_2 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_v12 : Ref sig .tc := ⟨.hbm, 72, rfl⟩
abbrev main_call0_c_3 : Ref sig .tc := ⟨.hbm, 73, rfl⟩
abbrev main_call0_v13 : Ref sig .tc := ⟨.hbm, 74, rfl⟩
abbrev main_call0_v14 : Ref sig .tc := ⟨.hbm, 75, rfl⟩
abbrev main_call0_cst : Ref sig .tc := ⟨.hbm, 76, rfl⟩
abbrev main_call0_v15 : Ref sig .tc := ⟨.hbm, 77, rfl⟩
abbrev main_v43 : Ref sig .tc := ⟨.hbm, 78, rfl⟩
abbrev main_v44 : Ref sig .tc := ⟨.hbm, 79, rfl⟩
abbrev main_cst_8 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_9 : Ref sig .tc := ⟨.hbm, 85, rfl⟩
abbrev main_v49 : Ref sig .tc := ⟨.hbm, 86, rfl⟩
abbrev main_v50 : Ref sig .tc := ⟨.hbm, 87, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S256x512_S256x512x1_0_1 : S256x512.BroadcastsInDim S256x512x1 (![0, 1] : Fin 2 → Fin S256x512x1.rank)
  bcast_S256x512_S256x1x512_0_2 : S256x512.BroadcastsInDim S256x1x512 (![0, 2] : Fin 2 → Fin S256x1x512.rank)
  bcast_S_S512x1 : S_.BroadcastsInDim S512x1 (![] : Fin 0 → Fin S512x1.rank)
  bcast_S_S1x512 : S_.BroadcastsInDim S1x512 (![] : Fin 0 → Fin S1x512.rank)
  bcast_S_S256x512x1 : S_.BroadcastsInDim S256x512x1 (![] : Fin 0 → Fin S256x512x1.rank)
  bcast_S_S256x1x512 : S_.BroadcastsInDim S256x1x512 (![] : Fin 0 → Fin S256x1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S256x512x1_S256x512x512_0_1_2 : S256x512x1.BroadcastsInDim S256x512x512 (![0, 1, 2] : Fin 3 → Fin S256x512x512.rank)
  bcast_S256x1x512_S256x512x512_0_1_2 : S256x1x512.BroadcastsInDim S256x512x512 (![0, 1, 2] : Fin 3 → Fin S256x512x512.rank)
  bcast_S512x512_S512x512x1_0_1 : S512x512.BroadcastsInDim S512x512x1 (![0, 1] : Fin 2 → Fin S512x512x1.rank)
  bcast_S256x512x512_S256x512x512x1_0_1_2 : S256x512x512.BroadcastsInDim S256x512x512x1 (![0, 1, 2] : Fin 3 → Fin S256x512x512x1.rank)
  bcast_S512x512x1_S256x512x512x1_1_2_3 : S512x512x1.BroadcastsInDim S256x512x512x1 (![1, 2, 3] : Fin 3 → Fin S256x512x512x1.rank)
  concatenates_S256x512x512x1_S256x512x512x1_S256x512x512x1_S256x512x512x1_S256x512x512x4_d3 : Shape.Concatenates [S256x512x512x1, S256x512x512x1, S256x512x512x1, S256x512x512x1] S256x512x512x4 3
  reducesTo_S256x512x512_S256_d1_2 : S256x512x512.ReducesTo [1, 2] S256
  h_S_ : 0 < S_.numel
  bcast_S_S256 : S_.BroadcastsInDim S256 (![] : Fin 0 → Fin S256.rank)
  bcast_S512x21_S1x512x21_1_2 : S512x21.BroadcastsInDim S1x512x21 (![1, 2] : Fin 2 → Fin S1x512x21.rank)
  shapeCasts_S256x512x1_S256x512x1x1 : S256x512x1.ShapeCasts S256x512x1x1
  shapeCasts_S1x512x21_S512x21 : S1x512x21.ShapeCasts S512x21
  bcast_S_S256x512x1x1 : S_.BroadcastsInDim S256x512x1x1 (![] : Fin 0 → Fin S256x512x1x1.rank)
  bcast_S1_S1x1x1x1_3 : S1.BroadcastsInDim S1x1x1x1 (![3] : Fin 1 → Fin S1x1x1x1.rank)
  bcast_S1x1x1x1_S256x512x1x1_0_1_2_3 : S1x1x1x1.BroadcastsInDim S256x512x1x1 (![0, 1, 2, 3] : Fin 4 → Fin S256x512x1x1.rank)
  reducesTo_S256x512x1x1_S256x512x1_d3 : S256x512x1x1.ReducesTo [3] S256x512x1
  shapeCasts_S256x512x1_S256x512 : S256x512x1.ShapeCasts S256x512
  reducesTo_S256x512_S256_d1 : S256x512.ReducesTo [1] S256
  gather_S512x512x21x21_S256x512x512x4_S256x512x512_n_0123_n_n_0123_3_1111_wf : GatherDims.WF S512x512x21x21 S256x512x512x4 S256x512x512 [] [0, 1, 2, 3] [] [0, 1, 2, 3] [] 3 ![1, 1, 1, 1]
  gather_S512x21_S256x512x1x1_S256x512x1_n_1_0_1_1_3_11_wf : GatherDims.WF S512x21 S256x512x1x1 S256x512x1 [] [1] [0] [1] [1] 3 ![1, 1]

variable [Facts₀]

def gather_S512x512x21x21_S256x512x512x4_S256x512x512_n_0123_n_n_0123_3_1111 : GatherDims S512x512x21x21 S256x512x512x4 S256x512x512 where
  offsetDims := []
  collapsedSliceDims := [0, 1, 2, 3]
  operandBatchingDims := []
  startIndicesBatchingDims := []
  startIndexMap := [0, 1, 2, 3]
  indexVectorDim := 3
  sliceSizes := ![1, 1, 1, 1]
  wf := gather_S512x512x21x21_S256x512x512x4_S256x512x512_n_0123_n_n_0123_3_1111_wf
def gather_S512x21_S256x512x1x1_S256x512x1_n_1_0_1_1_3_11 : GatherDims S512x21 S256x512x1x1 S256x512x1 where
  offsetDims := []
  collapsedSliceDims := [1]
  operandBatchingDims := [0]
  startIndicesBatchingDims := [1]
  startIndexMap := [1]
  indexVectorDim := 3
  sliceSizes := ![1, 1]
  wf := gather_S512x21_S256x512x1x1_S256x512x1_n_1_0_1_1_3_11_wf

class Facts : Prop extends Facts₀ where

variable [Facts]
-- ==== Proof.RefRun.lean ====
import proofs.«410947_j90460601188757_3_alg».proof.Proof.RefStages

set_option maxRecDepth 16384

noncomputable section

open scoped BigOperators
open Idealize.ShloMosaic Idealize.ShloMosaic.TcCoe Idealize.SL.Sem

namespace Cert.ReferenceIdeal.RunP
open Cert.ReferenceIdeal Cert.ReferenceIdeal.Gen
variable {F : FTy → Type} [FloatOps F]

/-- Every weakly fair execution of the gathering program terminates with its result at the last stage's value of the
    arguments, the arguments unchanged: the run's composed term is that stage. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50)
          = Cert.ReferenceIdeal.ReadP.val_main_v50 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (Cert.ReferenceIdeal.ReadP.val_main_v50_eq m c), (h c).2⟩)
    (Cert.ReferenceIdeal.ValueP.run (F := F) m ρ)

end Cert.ReferenceIdeal.RunP
end
-- ==== Proof.Spec.lean ====
/-
  The mathematics shared by both sides, over plain index types and with no program in sight.

  A configuration assigns each of 512 sites a state in {0, …, 20}; the pair energy of a sample is the sum over all
  ordered pairs of sites (i, j) of the coupling J[i, j, s_i, s_j], and the field energy the sum over sites of
  field[i, s_i]. One side computes the pair energy by gathering the 512 × 512 couplings; the other flattens
  (site, state) to one axis of length 10752 = 512 · 21, multiplies the flattened coupling matrix by the one-hot
  encoding of the sample on both sides, and sums the diagonal in four column blocks of 2688 and sixteen row blocks
  of 672. The two are the same number because a sum against a one-hot vector picks one term.
-/
import Idealize.ShloMosaic.PureOps.Ideal
import Idealize.ShloMosaic.PureOps.Ideal.Laws
import Idealize.ShloMosaic.Lib.ValueIdx

noncomputable section

open scoped BigOperators

namespace Cert.Spin

open Idealize.ShloMosaic Idealize.ShloMosaic.ValueIdx

abbrev SCfg : Shape := ⟨2, ![256, 512]⟩
abbrev SJ : Shape := ⟨4, ![512, 512, 21, 21]⟩
abbrev SFld : Shape := ⟨2, ![512, 21]⟩

/-- The state of site `i` in sample `b`, read as a natural number and folded into `Fin 21`. -/
def st (cfg : IVec SCfg 32) (b : Fin 256) (i : Fin 512) : Fin 21 :=
  ⟨(cfg (ix2 b i)).toNat % 21, Nat.mod_lt _ (by norm_num)⟩

/-- Every state of the configuration is one of the 21 states. -/
def InRange (cfg : IVec SCfg 32) : Prop := ∀ (b : Fin 256) (i : Fin 512), (cfg (ix2 b i)).toNat < 21

/-- The pair energy of sample `b`: the couplings at the sample's states, summed over all ordered pairs of sites. -/
def pairSum (cfg : IVec SCfg 32) (J : SJ.Idx → EReal) (b : Fin 256) : EReal :=
  ∑ i : Fin 512, ∑ j : Fin 512, J (ix4 i j (st cfg b i) (st cfg b j))

/-- The field energy of sample `b`. -/
def fieldSum (cfg : IVec SCfg 32) (fld : SFld.Idx → EReal) (b : Fin 256) : EReal :=
  ∑ i : Fin 512, fld (ix2 i (st cfg b i))

/-- Site and state of a flattened position `p = 21 · site + state`. -/
def siteOf (p : Fin 10752) : Fin 512 := ⟨p.val / 21, by have := p.isLt; omega⟩
def stateOf (p : Fin 10752) : Fin 21 := ⟨p.val % 21, Nat.mod_lt _ (by norm_num)⟩

/-- The couplings as a 10752 × 10752 matrix: row (site i, state k), column (site j, state l). -/
def flatJ (J : SJ.Idx → EReal) (p q : Fin 10752) : EReal := J (ix4 (siteOf p) (siteOf q) (stateOf p) (stateOf q))

/-- The one-hot encoding of the configuration, position by sample. -/
def flatOh (cfg : IVec SCfg 32) (p : Fin 10752) (b : Fin 256) : EReal :=
  if st cfg b (siteOf p) = stateOf p then 1 else 0

/-- Row `k` of row block `ib` (sixteen blocks of 672 rows). -/
def rowAt (ib : Fin 16) (k : Fin 672) : Fin 10752 := ⟨672 * ib.val + k.val, by have := ib.isLt; have := k.isLt; omega⟩
/-- Column `r` of column block `jb` (four blocks of 2688 columns). -/
def colAt (jb : Fin 4) (r : Fin 2688) : Fin 10752 := ⟨2688 * jb.val + r.val, by have := jb.isLt; have := r.isLt; omega⟩

/-- What one column block contributes for sample `b`: the matrix product accumulated over the sixteen row blocks,
    multiplied by the one-hot rows of the block and summed over the block's columns. -/
def blockPair (Jm : Fin 10752 → Fin 10752 → EReal) (oh : Fin 10752 → Fin 256 → EReal) (jb : Fin 4) (b : Fin 256) : EReal :=
  ∑ r : Fin 2688, (∑ ib : Fin 16, ∑ k : Fin 672, Jm (rowAt ib k) (colAt jb r) * oh (rowAt ib k) b) * oh (colAt jb r) b

/-- The blocked bilinear form: the four column blocks added. -/
def kerPair (Jm : Fin 10752 → Fin 10752 → EReal) (oh : Fin 10752 → Fin 256 → EReal) (b : Fin 256) : EReal :=
  ∑ jb : Fin 4, blockPair Jm oh jb b

/-- How the blocked side combines its two energies: one half of the pair energy plus the field energy,
    each sum started from zero. -/
def kerForm (p f : EReal) : EReal := Ideal.ofBits .f32 0x3F000000#32 * (0 + p) + (0 + f)

/-- How the gathering side combines them: minus (minus one half of the pair energy, plus minus the field energy),
    over the temperature one. -/
def refForm (p f : EReal) : EReal :=
  Ideal.div (-(Ideal.ofBits .f32 0xBF000000#32 * (0 + p) + -(0 + f))) (Ideal.ofBits .f32 0x3F800000#32)

end Cert.Spin

end
-- ==== Proof.KArrays.lean ====
import proofs.«410947_j90460601188757_3_alg».proof.Proof.Gen.KernelIdeal.Frame
import proofs.«410947_j90460601188757_3_alg».proof.Proof.Spec
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KV
open Cert.KernelIdeal Cert.KernelIdeal.Gen
variable (m : (ℓ : Loc nD τ sig) → Buf (Elt Ideal) ℓ)

/-- The flattened coupling matrix as the kernel's launch finds it: entry (p, q). -/
def Jm (c : Dev nD) (p q : Fin 10752) : EReal := (V m c main_v3 : S10752x10752.Idx → EReal) (ix2 p q)

/-- The one-hot operand as the kernel's launch finds it: entry (position p, sample b). -/
def oh (c : Dev nD) (p : Fin 10752) (b : Fin 256) : EReal := (V m c main_v6 : S10752x256.Idx → EReal) (ix2 p b)

end Cert.KernelIdeal.KV
end
-- ==== Proof.KPieces.lean ====
import proofs.«410947_j90460601188757_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KV
open Cert.KernelIdeal Cert.KernelIdeal.Gen
variable {F : FTy → Type} [FloatOps F]

/-- The 672 rows of the one-hot operand that the accumulation step of a grid point reads. -/
def ohRows (i : grid0.Coords) (x0 : Vec F S10752x256 .bf16) : Vec F S672x256 .bf16 :=
  View.ld x0 (Rect.unit (s := S10752x256) (k0_off1 i) S672x256.size (k0_off1_inb i))

/-- The 2688 rows of the one-hot operand that the closing step of a column block reads. -/
def ohCols (i : grid0.Coords) (h : cond0_1 i) (x0 : Vec F S10752x256 .bf16) : Vec F S2688x256 .bf16 :=
  View.ld x0 (Rect.unit (s := S10752x256) (k0_off2 i) S2688x256.size (k0_off2_inb i h))

private theorem hz2 : (![0, 0] : Fin 2 → Nat) = fun _ => 0 := funext fun a => by fin_cases a <;> rfl

private theorem hz3 : (![0, 0, 0] : Fin 3 → Nat) = fun _ => 0 := funext fun a => by fin_cases a <;> rfl

/-- The row offset of the accumulation step's load: the 32-bit product `ib · 672` does not wrap for `ib < 16`. -/
private theorem off1_val : ∀ n : Fin 16, (Scalar.indexCast (Scalar.muli (BitVec.ofNat 32 n.val) 672#32) : Index).toNat = 672 * n.val := by
  decide

/-- The row offset of the closing step's load: the 32-bit product `jb · 2688` does not wrap for `jb < 4`. -/
private theorem off2_val : ∀ n : Fin 4, (Scalar.indexCast (Scalar.muli (BitVec.ofNat 32 n.val) 2688#32) : Index).toNat = 2688 * n.val := by
  decide

theorem ohRows_apply (i : grid0.Coords) (x0 : Vec F S10752x256 .bf16) (k : Fin 672) (b : Fin 256) (p : Fin 10752)
    (hp : p.val = 672 * (i 1).val + k.val) : ohRows i x0 (ix2 k b) = x0 (ix2 p b) := by
  have h1 : (i 1).val < 16 := (i 1).isLt
  have ho : (k0_off1 i) 0 = 672 * (i 1).val := off1_val ⟨(i 1).val, h1⟩
  show x0 ((Rect.unit (s := S10752x256) (k0_off1 i) S672x256.size (k0_off1_inb i)).idx (ix2 k b)) = x0 (ix2 p b)
  congr 1
  funext a
  apply Fin.ext
  match a with
  | ⟨0, _⟩ => show (k0_off1 i) 0 + 1 * k.val = p.val; rw [ho, hp]; omega
  | ⟨1, _⟩ => show 0 + 1 * b.val = b.val; omega

theorem ohCols_apply (i : grid0.Coords) (h : cond0_1 i) (x0 : Vec F S10752x256 .bf16) (r : Fin 2688) (b : Fin 256) (p : Fin 10752)
    (hp : p.val = 2688 * (i 0).val + r.val) : ohCols i h x0 (ix2 r b) = x0 (ix2 p b) := by
  have h0 : (i 0).val < 4 := (i 0).isLt
  have ho : (k0_off2 i) 0 = 2688 * (i 0).val := off2_val ⟨(i 0).val, h0⟩
  show x0 ((Rect.unit (s := S10752x256) (k0_off2 i) S2688x256.size (k0_off2_inb i h)).idx (ix2 r b)) = x0 (ix2 p b)
  congr 1
  funext a
  apply Fin.ext
  match a with
  | ⟨0, _⟩ => show (k0_off2 i) 0 + 1 * r.val = p.val; rw [ho, hp]; omega
  | ⟨1, _⟩ => show 0 + 1 * b.val = b.val; omega

theorem sout_A (c : Dev nD) (i : grid0.Coords) (arg2 : Memref sig .tc .vmem S10752x256 .bf16) (harg2 : arg2.IsWhole) (arg3 : Memref sig .tc .vmem S672x2688 .bf16) (harg3 : arg3.IsWhole) (arg4 : Memref sig .tc .vmem S1x1x256 .f32) (harg4 : arg4.IsWhole) (arg5 : Memref sig .tc .vmem S2688x256 .f32) (harg5 : arg5.IsWhole) (hc0 : cond0_0 i) (hc1 : ¬cond0_1 i)
    (x0 : Vec F S10752x256 .bf16) (x1 : Vec F S672x2688 .bf16) :
    sout0_A_0 c i arg2 harg2 arg3 harg3 arg4 harg4 arg5 harg5 hc0 hc1 x0 x1 = k0_pay2 (ohRows i x0) x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S2688x256) hz2, View.readCov_unit_zero (S := S2688x256) _ hz2]
  simp only [View.readAt_eq_ld, harg2.read_unread, harg3.read_unread, View.ld_unit_zero (S := S672x2688) hz2]
  rfl

theorem sout_B (c : Dev nD) (i : grid0.Coords) (arg2 : Memref sig .tc .vmem S10752x256 .bf16) (harg2 : arg2.IsWhole) (arg3 : Memref sig .tc .vmem S672x2688 .bf16) (harg3 : arg3.IsWhole) (arg4 : Memref sig .tc .vmem S1x1x256 .f32) (harg4 : arg4.IsWhole) (arg5 : Memref sig .tc .vmem S2688x256 .f32) (harg5 : arg5.IsWhole) (hc0 : ¬cond0_0 i) (hc1 : ¬cond0_1 i)
    (x0 : Vec F S10752x256 .bf16) (x1 : Vec F S672x2688 .bf16) (xs0 : Vec F S2688x256 .f32) :
    sout0_B_0 c i arg2 harg2 arg3 harg3 arg4 harg4 arg5 harg5 hc0 hc1 x0 x1 xs0 = k0_pay2 (ohRows i x0) x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S672x2688) hz2, View.ld_unit_zero (S := S2688x256) hz2]
  rfl

theorem sout_C (c : Dev nD) (i : grid0.Coords) (arg2 : Memref sig .tc .vmem S10752x256 .bf16) (harg2 : arg2.IsWhole) (arg3 : Memref sig .tc .vmem S672x2688 .bf16) (harg3 : arg3.IsWhole) (arg4 : Memref sig .tc .vmem S1x1x256 .f32) (harg4 : arg4.IsWhole) (arg5 : Memref sig .tc .vmem S2688x256 .f32) (harg5 : arg5.IsWhole) (hc0 : ¬cond0_0 i) (hc1 : cond0_1 i)
    (x0 : Vec F S10752x256 .bf16) (x1 : Vec F S672x2688 .bf16) (xs0 : Vec F S2688x256 .f32) :
    sout0_C_0 c i arg2 harg2 arg3 harg3 arg4 harg4 arg5 harg5 hc0 hc1 x0 x1 xs0 = k0_pay2 (ohRows i x0) x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S672x2688) hz2, View.ld_unit_zero (S := S2688x256) hz2]
  rfl

theorem out_C (c : Dev nD) (i : grid0.Coords) (arg2 : Memref sig .tc .vmem S10752x256 .bf16) (harg2 : arg2.IsWhole) (arg3 : Memref sig .tc .vmem S672x2688 .bf16) (harg3 : arg3.IsWhole) (arg4 : Memref sig .tc .vmem S1x1x256 .f32) (harg4 : arg4.IsWhole) (arg5 : Memref sig .tc .vmem S2688x256 .f32) (harg5 : arg5.IsWhole) (hc0 : ¬cond0_0 i) (hc1 : cond0_1 i)
    (x0 : Vec F S10752x256 .bf16) (x1 : Vec F S672x2688 .bf16) (xs0 : Vec F S2688x256 .f32) :
    out0_C_2 c i arg2 harg2 arg3 harg3 arg4 harg4 arg5 harg5 hc0 hc1 x0 x1 xs0 = k0_pay3 (ohCols i hc1 x0) (k0_pay2 (ohRows i x0) x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x1x256) hz3, View.readCov_unit_zero (S := S2688x256) _ hz2]
  simp only [View.readAt_eq_ld, harg2.read_unread, harg3.read_unread, harg5.read_unread,
    View.ld_unit_zero (S := S672x2688) hz2, View.ld_unit_zero (S := S2688x256) hz2]
  rfl

end Cert.KernelIdeal.KV
end
-- ==== Proof.KPayload.lean ====
import proofs.«410947_j90460601188757_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KV
open Cert.KernelIdeal Cert.KernelIdeal.Gen

/-! ## The zero splat -/

theorem pay1_apply (r : Fin 2688) (b : Fin 256) : (k0_pay1 (F := Ideal)) (ix2 r b) = 0 := by
  unfold k0_pay1
  rw [shapeCast_self]
  exact Ideal.ofBits_zero_f32

/-! ## The block product: the operand indices of the contraction over axis 0 of both operands -/

/-- The left operand's axis 0 is the contracted one: it reads the contraction position. -/
theorem lhs_0 (j : S2688x256.Idx) (k : dot_S672x2688_S672x256_S2688x256_0_0_1_1_n_n.contr.Idx)
    (h0 : 0 < dot_S672x2688_S672x256_S2688x256_0_0_1_1_n_n.contr.rank) :
    (dot_S672x2688_S672x256_S2688x256_0_0_1_1_n_n.lhsIdx j k 0).val = (k ⟨0, h0⟩).val :=
  DotDims.lhsIdx_val_of_single dot_S672x2688_S672x256_S2688x256_0_0_1_1_n_n (cl := 0) rfl j k

/-- The left operand's axis 1 is the result's axis 0. -/
theorem lhs_1 (j : S2688x256.Idx) (k : dot_S672x2688_S672x256_S2688x256_0_0_1_1_n_n.contr.Idx) :
    (dot_S672x2688_S672x256_S2688x256_0_0_1_1_n_n.lhsIdx j k 1).val = (j 0).val := by
  unfold DotDims.lhsIdx
  rw [dif_neg (show ¬ (1 : Fin S672x2688.rank) ∈ dot_S672x2688_S672x256_S2688x256_0_0_1_1_n_n.lhsBatch by decide),
    dif_pos (show (1 : Fin S672x2688.rank) ∈ dot_S672x2688_S672x256_S2688x256_0_0_1_1_n_n.lhsNonContracting by decide)]
  rfl

/-- The right operand's axis 0 is the contracted one: it reads the contraction position. -/
theorem rhs_0 (j : S2688x256.Idx) (k : dot_S672x2688_S672x256_S2688x256_0_0_1_1_n_n.contr.Idx)
    (h0 : 0 < dot_S672x2688_S672x256_S2688x256_0_0_1_1_n_n.contr.rank) :
    (dot_S672x2688_S672x256_S2688x256_0_0_1_1_n_n.rhsIdx j k 0).val = (k ⟨0, h0⟩).val :=
  DotDims.rhsIdx_val_of_single dot_S672x2688_S672x256_S2688x256_0_0_1_1_n_n (cr := 0) rfl j k

/-- The right operand's axis 1 is the result's axis 1. -/
theorem rhs_1 (j : S2688x256.Idx) (k : dot_S672x2688_S672x256_S2688x256_0_0_1_1_n_n.contr.Idx) :
    (dot_S672x2688_S672x256_S2688x256_0_0_1_1_n_n.rhsIdx j k 1).val = (j 1).val := by
  unfold DotDims.rhsIdx
  rw [dif_neg (show ¬ (1 : Fin S672x256.rank) ∈ dot_S672x2688_S672x256_S2688x256_0_0_1_1_n_n.rhsBatch by decide),
    dif_pos (show (1 : Fin S672x256.rank) ∈ dot_S672x2688_S672x256_S2688x256_0_0_1_1_n_n.rhsNonContracting by decide)]
  rfl

/-- The product at (r, b): the sum over the 672 contraction positions of lhs(k, r) · rhs(k, b). -/
theorem mm_apply (lhs : FVec Ideal S672x2688 .bf16) (rhs : FVec Ideal S672x256 .bf16) (r : Fin 2688) (b : Fin 256) :
    FloatOps.matmul dot_S672x2688_S672x256_S2688x256_0_0_1_1_n_n none lhs rhs (constant (F := Ideal) S2688x256 .f32 0x00000000#32) (ix2 r b)
      = ∑ k : Fin 672, (lhs (ix2 k r) : EReal) * (rhs (ix2 k b) : EReal) := by
  rw [Ideal.matmul_constant_zero_apply]
  rw [← Equiv.sum_comp (contrEquiv1 dot_S672x2688_S672x256_S2688x256_0_0_1_1_n_n 672 rfl rfl).symm]
  refine Finset.sum_congr rfl fun k _ => ?_
  have hl : dot_S672x2688_S672x256_S2688x256_0_0_1_1_n_n.lhsIdx (ix2 r b)
      ((contrEquiv1 dot_S672x2688_S672x256_S2688x256_0_0_1_1_n_n 672 rfl rfl).symm k) = ix2 k r :=
    funext fun a => Fin.ext (by
      match a with
      | ⟨0, _⟩ => exact (lhs_0 _ _ _).trans (contrEquiv1_symm_val _ 672 rfl rfl k)
      | ⟨1, _⟩ => exact lhs_1 _ _)
  have hr : dot_S672x2688_S672x256_S2688x256_0_0_1_1_n_n.rhsIdx (ix2 r b)
      ((contrEquiv1 dot_S672x2688_S672x256_S2688x256_0_0_1_1_n_n 672 rfl rfl).symm k) = ix2 k b :=
    funext fun a => Fin.ext (by
      match a with
      | ⟨0, _⟩ => exact (rhs_0 _ _ _).trans (contrEquiv1_symm_val _ 672 rfl rfl k)
      | ⟨1, _⟩ => exact rhs_1 _ _)
  rw [hl, hr]

theorem pay2_apply (v6 : Vec Ideal S672x256 .bf16) (v8 : Vec Ideal S672x2688 .bf16) (v11 : Vec Ideal S2688x256 .f32)
    (r : Fin 2688) (b : Fin 256) :
    k0_pay2 v6 v8 v11 (ix2 r b) = (v11 (ix2 r b) : EReal) + ∑ k : Fin 672, (v8 (ix2 k r) : EReal) * (v6 (ix2 k b) : EReal) := by
  unfold k0_pay2
  rw [shapeCast_self, shapeCast_self, shapeCast_self]
  rw [addf_apply]
  exact congrArg (v11 (ix2 r b) + ·) (mm_apply v8 v6 r b)

/-! ## The closing row sum -/

/-- A [a] vector cast to [1, 1, a] reads, at (u, v, i), the operand at i. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

/-- The sum over axis 0 of a [2688, 256] vector at lane b. -/
theorem rowsum_apply (src : FVec Ideal S2688x256 .f32) (h : S2688x256.Reduces [0] S256) (hφ : FKind.Formats .f32)
    (hacc : (0x00000000#32 : BitVec 32) = 0x00000000#32) (b : Fin 256) :
    multiReduction (F := Ideal) .add [0] S256 src 0x00000000#32 h hφ hacc (ix1 b) = ∑ r : Fin 2688, src (ix2 r b) := by
  refine (Ideal.multiReduction_add_single src 0x00000000#32 h hφ hacc (ix1 b)).trans ?_
  refine Finset.sum_congr rfl fun k _ => congrArg src (funext fun a => Fin.ext ?_)
  match a with
  | ⟨0, _⟩ => rfl
  | ⟨1, _⟩ => rfl

theorem pay3_apply (v22 : Vec Ideal S2688x256 .bf16) (v25 : Vec Ideal S2688x256 .f32) (b : Fin 256) :
    k0_pay3 v22 v25 (ix3 0 0 b) = ∑ r : Fin 2688, (v25 (ix2 r b) : EReal) * (v22 (ix2 r b) : EReal) := by
  unfold k0_pay3
  rw [shapeCast_self]
  refine (shapeCast_a_11a_apply _ _ 0 0 b).trans ?_
  refine (rowsum_apply _ _ _ _ b).trans ?_
  rfl

end Cert.KernelIdeal.KV
end
-- ==== Proof.KAccum.lean ====
import proofs.«410947_j90460601188757_3_alg».proof.Proof.KArrays
import proofs.«410947_j90460601188757_3_alg».proof.Proof.KPieces
import proofs.«410947_j90460601188757_3_alg».proof.Proof.KPayload
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KV
open Cert.KernelIdeal Cert.KernelIdeal.Gen
variable (m : (ℓ : Loc nD τ sig) → Buf (Elt Ideal) ℓ)

/-- The grid's coordinates in closed form: point t is column block t / 16, row block t % 16. -/
theorem coords_val : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- The one-hot operand is staged whole: its block index is (0, 0) at every point. -/
theorem idx0 : ∀ t : Fin cfg0.N, win0_0.index t 0 = 0 ∧ win0_0.index t 1 = 0 :=
  (by decide +kernel : ∀ t : Fin grid0.N, win0_0.index t 0 = 0 ∧ win0_0.index t 1 = 0)

/-- The coupling matrix's block index at point t is (row block t % 16, column block t / 16). -/
theorem idx1 : ∀ t : Fin cfg0.N, win0_1.index t 0 = t.val % 16 ∧ win0_1.index t 1 = t.val / 16 :=
  (by decide +kernel : ∀ t : Fin grid0.N, win0_1.index t 0 = t.val % 16 ∧ win0_1.index t 1 = t.val / 16)

/-- The one-hot operand as the body finds it staged at point t. -/
abbrev ohBlk (c : Dev nD) (t : Fin cfg0.N) : Vec Ideal S10752x256 .bf16 := iblk m c 0 t
/-- The coupling block the body finds staged at point t. -/
abbrev jBlk (c : Dev nD) (t : Fin cfg0.N) : Vec Ideal S672x2688 .bf16 := iblk m c 1 t

/-- The staged one-hot operand is the whole array. -/
theorem ohBlk_apply (c : Dev nD) (t : Fin cfg0.N) (p : Fin 10752) (b : Fin 256) :
    (ohBlk m c t (ix2 p b) : EReal) = oh m c p b := by
  unfold ohBlk iblk oh
  rw [View.read_apply]
  show V m c main_v6 _ = V m c main_v6 _
  congr 1
  funext a
  apply Fin.ext
  match a with
  | ⟨0, _⟩ => show win0_0.index t 0 * 10752 + 1 * p.val = p.val; rw [(idx0 t).1]; omega
  | ⟨1, _⟩ => show win0_0.index t 1 * 256 + 1 * b.val = b.val; rw [(idx0 t).2]; omega

/-- The staged coupling block at point t is block (t % 16, t / 16) of the matrix: entry (k, q) of the block is
    entry (672 · (t % 16) + k, 2688 · (t / 16) + q). -/
theorem jBlk_apply (c : Dev nD) (t : Fin cfg0.N) (k : Fin 672) (q : Fin 2688) (ib : Fin 16) (hib : ib.val = t.val % 16)
    (jb : Fin 4) (hjb : jb.val = t.val / 16) :
    (jBlk m c t (ix2 k q) : EReal) = Jm m c (Spin.rowAt ib k) (Spin.colAt jb q) := by
  unfold jBlk iblk Jm
  rw [View.read_apply]
  show V m c main_v3 _ = V m c main_v3 _
  congr 1
  funext a
  apply Fin.ext
  match a with
  | ⟨0, _⟩ => show win0_1.index t 0 * 672 + 1 * k.val = 672 * ib.val + k.val; rw [(idx1 t).1, hib]; omega
  | ⟨1, _⟩ => show win0_1.index t 1 * 2688 + 1 * q.val = 2688 * jb.val + q.val; rw [(idx1 t).2, hjb]; omega

/-! ## Partial sums over the row blocks -/

/-- The sum over the row blocks up to block 0 is the term of block 0. -/
theorem psum_zero (f : Fin 16 → EReal) : (∑ ib ∈ Finset.univ.filter (fun ib : Fin 16 => ib.val ≤ 0), f ib) = f 0 := by
  have hset : Finset.univ.filter (fun ib : Fin 16 => ib.val ≤ 0) = {(0 : Fin 16)} := by
    ext ib
    simp only [Finset.mem_filter, Finset.mem_univ, true_and, Finset.mem_singleton]
    constructor
    · intro h; exact Fin.ext (by show ib.val = 0; omega)
    · intro h; subst h; exact le_refl _
  rw [hset]; exact Finset.sum_singleton _ _

/-- The sum over the row blocks up to block j + 1 is the sum up to block j plus the term of block j + 1. -/
theorem psum_succ (f : Fin 16 → EReal) (j : ℕ) (hj : j + 1 < 16) :
    (∑ ib ∈ Finset.univ.filter (fun ib : Fin 16 => ib.val ≤ j + 1), f ib)
      = (∑ ib ∈ Finset.univ.filter (fun ib : Fin 16 => ib.val ≤ j), f ib) + f ⟨j + 1, hj⟩ := by
  have hset : Finset.univ.filter (fun ib : Fin 16 => ib.val ≤ j + 1)
      = insert (⟨j + 1, hj⟩ : Fin 16) (Finset.univ.filter (fun ib : Fin 16 => ib.val ≤ j)) := by
    ext ib
    simp only [Finset.mem_filter, Finset.mem_univ, true_and, Finset.mem_insert, Fin.ext_iff]
    omega
  have hnot : (⟨j + 1, hj⟩ : Fin 16) ∉ Finset.univ.filter (fun ib : Fin 16 => ib.val ≤ j) := by
    simp only [Finset.mem_filter, Finset.mem_univ, true_and]; omega
  rw [hset, Finset.sum_insert hnot, add_comm]

/-- The sum over the row blocks up to block 15 is the sum over all sixteen. -/
theorem psum_full (f : Fin 16 → EReal) : (∑ ib ∈ Finset.univ.filter (fun ib : Fin 16 => ib.val ≤ 15), f ib) = ∑ ib, f ib := by
  rw [Finset.filter_true_of_mem (fun ib _ => by have := ib.isLt; omega)]

/-! ## One accumulation step -/

/-- What the accumulation step of point t leaves at (r, b), over a scratch holding xs0: the scratch's entry plus
    the product of the point's coupling block with its 672 one-hot rows. -/
theorem step_value (c : Dev nD) (t : Fin cfg0.N) (xs0 : Vec Ideal S2688x256 .f32) (r : Fin 2688) (b : Fin 256)
    (ib : Fin 16) (hib : ib.val = t.val % 16) (jb : Fin 4) (hjb : jb.val = t.val / 16) :
    (k0_pay2 (ohRows (grid0.coords t) (ohBlk m c t)) (jBlk m c t) xs0 (ix2 r b) : EReal)
      = (xs0 (ix2 r b) : EReal)
        + ∑ k : Fin 672, Jm m c (Spin.rowAt ib k) (Spin.colAt jb r) * oh m c (Spin.rowAt ib k) b := by
  refine (pay2_apply (ohRows (grid0.coords t) (ohBlk m c t)) (jBlk m c t) xs0 r b).trans ?_
  refine congrArg (fun x : EReal => (xs0 (ix2 r b) : EReal) + x) ?_
  refine Finset.sum_congr rfl fun k _ => ?_
  rw [jBlk_apply m c t k r ib hib jb hjb,
    ohRows_apply (grid0.coords t) (ohBlk m c t) k b (Spin.rowAt ib k)
      (by show 672 * ib.val + k.val = _; rw [(coords_val t).2, hib]),
    ohBlk_apply m c t (Spin.rowAt ib k) b]

/-! ## The invariant of the carried scratch -/

/-- After point n (column block n / 16, row block n % 16) the scratch holds at (r, b) the product of the column
    block's couplings with the one-hot rows, accumulated over the row blocks 0 … n % 16. -/
theorem acc_value (c : Dev nD) : ∀ (n : ℕ) (h : n < cfg0.N) (r : Fin 2688) (b : Fin 256) (jb : Fin 4) (hjb : jb.val = n / 16),
    ((outsAt0 m c n h).2 (ix2 r b) : EReal)
      = ∑ ib ∈ Finset.univ.filter (fun ib : Fin 16 => ib.val ≤ n % 16),
          ∑ k : Fin 672, Jm m c (Spin.rowAt ib k) (Spin.colAt jb r) * oh m c (Spin.rowAt ib k) b := by
  intro n
  induction n with
  | zero =>
    intro h r b jb hjb
    have h0 : (⟨0, h⟩ : Fin cfg0.N).val % 16 = 0 := rfl
    have h1 : ¬(⟨0, h⟩ : Fin cfg0.N).val % 16 = 15 := by show ¬(0 % 16 = 15); decide
    rw [outsAt0_A m c ⟨0, h⟩ h0 h1]
    dsimp only
    refine (congrFun (sout_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) ((hcond0_0 ⟨0, h⟩).mpr h0)
      (fun hh => h1 ((hcond0_1 ⟨0, h⟩).mp hh)) (iblk m c 0 ⟨0, h⟩) (iblk m c 1 ⟨0, h⟩)) (ix2 r b)).trans ?_
    refine (step_value m c ⟨0, h⟩ (k0_pay1 (F := Ideal)) r b 0 rfl jb hjb).trans ?_
    rw [pay1_apply r b, zero_add]
    exact (psum_zero (fun ib => ∑ k : Fin 672, Jm m c (Spin.rowAt ib k) (Spin.colAt jb r) * oh m c (Spin.rowAt ib k) b)).symm
  | succ n ih =>
    intro h r b jb hjb
    have hN : n + 1 < 64 := lt_of_lt_of_eq h (show cfg0.N = 64 from N_0)
    by_cases h0 : (⟨n + 1, h⟩ : Fin cfg0.N).val % 16 = 0
    · have h1 : ¬(⟨n + 1, h⟩ : Fin cfg0.N).val % 16 = 15 := by dsimp only at h0 ⊢; omega
      rw [outsAt0_A m c ⟨n + 1, h⟩ h0 h1]
      dsimp only
      refine (congrFun (sout_A (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) ((hcond0_0 ⟨n + 1, h⟩).mpr h0)
        (fun hh => h1 ((hcond0_1 ⟨n + 1, h⟩).mp hh)) (iblk m c 0 ⟨n + 1, h⟩) (iblk m c 1 ⟨n + 1, h⟩)) (ix2 r b)).trans ?_
      refine (step_value m c ⟨n + 1, h⟩ (k0_pay1 (F := Ideal)) r b 0 (by dsimp only at h0 ⊢; omega) jb hjb).trans ?_
      rw [pay1_apply r b, zero_add]
      have hm : (n + 1) % 16 = 0 := h0
      rw [hm]
      exact (psum_zero (fun ib => ∑ k : Fin 672, Jm m c (Spin.rowAt ib k) (Spin.colAt jb r) * oh m c (Spin.rowAt ib k) b)).symm
    · have hm : (n + 1) % 16 = n % 16 + 1 := by dsimp only at h0; omega
      have hlt : n % 16 + 1 < 16 := by omega
      have hjb' : jb.val = n / 16 := by dsimp only at h0; omega
      have hprev := ih (Nat.lt_of_succ_lt h) r b jb hjb'
      by_cases h1 : (⟨n + 1, h⟩ : Fin cfg0.N).val % 16 = 15
      · rw [outsAt0_C m c ⟨n + 1, h⟩ h0 h1]
        dsimp only
        refine (congrFun (sout_C (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) (fun hh => h0 ((hcond0_0 ⟨n + 1, h⟩).mp hh))
          ((hcond0_1 ⟨n + 1, h⟩).mpr h1) (iblk m c 0 ⟨n + 1, h⟩) (iblk m c 1 ⟨n + 1, h⟩)
          (outsAt0 m c ((⟨n + 1, h⟩ : Fin cfg0.N).val - 1) (Nat.lt_of_le_of_lt (Nat.sub_le _ _) (⟨n + 1, h⟩ : Fin cfg0.N).isLt)).2) (ix2 r b)).trans ?_
        refine (step_value m c ⟨n + 1, h⟩ _ r b ⟨n % 16 + 1, hlt⟩ hm.symm jb hjb).trans ?_
        rw [hm]
        refine Eq.trans ?_ (psum_succ (fun ib => ∑ k : Fin 672, Jm m c (Spin.rowAt ib k) (Spin.colAt jb r) * oh m c (Spin.rowAt ib k) b) (n % 16) hlt).symm
        exact congrArg (fun x : EReal => x + ∑ k : Fin 672, Jm m c (Spin.rowAt ⟨n % 16 + 1, hlt⟩ k) (Spin.colAt jb r) * oh m c (Spin.rowAt ⟨n % 16 + 1, hlt⟩ k) b) hprev
      · rw [outsAt0_B m c ⟨n + 1, h⟩ h0 h1]
        dsimp only
        refine (congrFun (sout_B (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) (fun hh => h0 ((hcond0_0 ⟨n + 1, h⟩).mp hh))
          (fun hh => h1 ((hcond0_1 ⟨n + 1, h⟩).mp hh)) (iblk m c 0 ⟨n + 1, h⟩) (iblk m c 1 ⟨n + 1, h⟩)
          (outsAt0 m c ((⟨n + 1, h⟩ : Fin cfg0.N).val - 1) (Nat.lt_of_le_of_lt (Nat.sub_le _ _) (⟨n + 1, h⟩ : Fin cfg0.N).isLt)).2) (ix2 r b)).trans ?_
        refine (step_value m c ⟨n + 1, h⟩ _ r b ⟨n % 16 + 1, hlt⟩ hm.symm jb hjb).trans ?_
        rw [hm]
        refine Eq.trans ?_ (psum_succ (fun ib => ∑ k : Fin 672, Jm m c (Spin.rowAt ib k) (Spin.colAt jb r) * oh m c (Spin.rowAt ib k) b) (n % 16) hlt).symm
        exact congrArg (fun x : EReal => x + ∑ k : Fin 672, Jm m c (Spin.rowAt ⟨n % 16 + 1, hlt⟩ k) (Spin.colAt jb r) * oh m c (Spin.rowAt ⟨n % 16 + 1, hlt⟩ k) b) hprev

/-! ## The stored block -/

/-- At the last row block of column block `jb` (grid point 16·jb + 15) the output block holds, for each sample,
    the column block's share of the pair energy. -/
theorem out_value (c : Dev nD) (t : Fin cfg0.N) (h : t.val % 16 = 15) (jb : Fin 4) (hjb : jb.val = t.val / 16) (b : Fin 256) :
    ((outsAt0 m c t.val t.isLt).1 : S1x1x256.Idx → EReal) (ix3 0 0 b) = Spin.blockPair (Jm m c) (oh m c) jb b := by
  have h0 : ¬t.val % 16 = 0 := by omega
  have hacc : ∀ r : Fin 2688, ((outsAt0 m c t.val t.isLt).2 (ix2 r b) : EReal)
      = ∑ ib : Fin 16, ∑ k : Fin 672, Jm m c (Spin.rowAt ib k) (Spin.colAt jb r) * oh m c (Spin.rowAt ib k) b := fun r => by
    rw [acc_value m c t.val t.isLt r b jb hjb, h]
    exact psum_full (fun ib => ∑ k : Fin 672, Jm m c (Spin.rowAt ib k) (Spin.colAt jb r) * oh m c (Spin.rowAt ib k) b)
  rw [outsAt0_C m c t h0 h] at hacc ⊢
  dsimp only at hacc ⊢
  refine (congrFun (out_C (F := Ideal) c (grid0.coords t) (ms0_0 t) (hs0_0 t) (ms0_1 t) (hs0_1 t) (ms0_2 t) (hs0_2 t)
    scM0_0 (Memref.isWhole_whole _) (fun hh => h0 ((hcond0_0 t).mp hh)) ((hcond0_1 t).mpr h) (iblk m c 0 t) (iblk m c 1 t)
    (outsAt0 m c (t.val - 1) (Nat.lt_of_le_of_lt (Nat.sub_le _ _) t.isLt)).2) (ix3 0 0 b)).trans ?_
  refine (pay3_apply (ohCols (grid0.coords t) ((hcond0_1 t).mpr h) (ohBlk m c t))
    (k0_pay2 (ohRows (grid0.coords t) (ohBlk m c t)) (jBlk m c t) (outsAt0 m c (t.val - 1) (Nat.lt_of_le_of_lt (Nat.sub_le _ _) t.isLt)).2) b).trans ?_
  unfold Spin.blockPair
  refine Finset.sum_congr rfl fun r _ => ?_
  have hr := hacc r
  rw [sout_C (F := Ideal) c (grid0.coords t) (ms0_0 t) (hs0_0 t) (ms0_1 t) (hs0_1 t) (ms0_2 t) (hs0_2 t)
    scM0_0 (Memref.isWhole_whole _) (fun hh => h0 ((hcond0_0 t).mp hh)) ((hcond0_1 t).mpr h) (iblk m c 0 t) (iblk m c 1 t)
    (outsAt0 m c (t.val - 1) (Nat.lt_of_le_of_lt (Nat.sub_le _ _) t.isLt)).2] at hr
  rw [ohCols_apply (grid0.coords t) ((hcond0_1 t).mpr h) (ohBlk m c t) r b (Spin.colAt jb r)
      (by show 2688 * jb.val + r.val = _; rw [(coords_val t).1, hjb]),
    ohBlk_apply m c t (Spin.colAt jb r) b]
  exact congrArg (fun x : EReal => x * oh m c (Spin.colAt jb r) b) hr

end Cert.KernelIdeal.KV
end
-- ==== Proof.KFinal.lean ====
import proofs.«410947_j90460601188757_3_alg».proof.Proof.KAccum
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KV
open Cert.KernelIdeal Cert.KernelIdeal.Gen
variable (m : (ℓ : Loc nD τ sig) → Buf (Elt Ideal) ℓ)

/-- Where the result's block sits at grid point t: block t / 16 along the column-block axis, block 0 along the other two. -/
theorem outIndex : ∀ t : Fin cfg0.N, win0_2.index t (0 : Fin 3) = t.val / 16
    ∧ win0_2.index t (1 : Fin 3) = 0 ∧ win0_2.index t (2 : Fin 3) = 0 :=
  (by decide +kernel : ∀ t : Fin grid0.N, win0_2.index t (0 : Fin 3) = t.val / 16
    ∧ win0_2.index t (1 : Fin 3) = 0 ∧ win0_2.index t (2 : Fin 3) = 0)

/-- The whole result array as one function of the launch's operands: entry (jb, 0, b) is column block jb's share of
    sample b's pair energy. -/
def blockShares (c : Dev nD) : Buf (Elt Ideal) ((c : Thread nD τ).loc main_v7) :=
  fun i : S4x1x256.Idx => Spin.blockPair (Jm m c) (oh m c) ⟨(i 0).val, (i 0).isLt⟩ ⟨(i 2).val, (i 2).isLt⟩

/-- What the last row block's point of a column block writes back is that column block's slice of `blockShares`:
    block coordinate (0, 0, b) is array entry (t / 16, 0, b). -/
theorem flushed_eq (c : Dev nD) (t : Fin cfg0.N) (hf : (cfg0.win 2).flush t = true) :
    (dats m 0 c).flushed 2 t = ((cfg0.win 2).blk t).view.read (Elt Ideal) (blockShares m c) := by
  have h15 : t.val % 16 = 15 := (flush0_2 t).mp hf
  have hN : t.val < 64 := by have h := t.isLt; have e : cfg0.N = 64 := N_0; omega
  obtain ⟨e0, e1, e2⟩ := outIndex t
  show (cfg0.win 2).cut (grid0.coords t) ((dats m 0 c).after 2 t) = _
  rw [after0_2]
  funext y
  have hy0 : (y 0).val < 1 := (y 0).isLt
  have hy1 : (y 1).val < 1 := (y 1).isLt
  have hy2 : (y 2).val < 256 := (y 2).isLt
  show (outsAt0 m c t.val t.isLt).1 ((cfg0.win 2).xinj (grid0.coords t) y) = blockShares m c (((cfg0.win 2).blk t).view.emb y)
  have hx : (cfg0.win 2).xinj (grid0.coords t) y = ix3 0 0 ⟨(y 2).val, hy2⟩ := by
    funext a; apply Fin.ext
    match a with
    | ⟨0, _⟩ => show (y 0).val = 0; omega
    | ⟨1, _⟩ => show (y 1).val = 0; omega
    | ⟨2, _⟩ => rfl
  have k0 : ((((cfg0.win 2).blk t).view.emb y) 0 : Nat) = t.val / 16 := by
    show win0_2.index t 0 * 1 + 1 * (y 0).val = _; omega
  have k2 : ((((cfg0.win 2).blk t).view.emb y) 2 : Nat) = (y 2).val := by
    show win0_2.index t 2 * 256 + 1 * (y 2).val = _; omega
  refine (congrArg _ hx).trans ((out_value m c t h15 ⟨t.val / 16, by omega⟩ rfl ⟨(y 2).val, hy2⟩).trans ?_)
  show Spin.blockPair _ _ _ _ = Spin.blockPair _ _ _ _
  congr 1
  · exact Fin.ext k0.symm
  · exact Fin.ext k2.symm

/-- Every entry (jb, 0, b) of the result array lies in the block written back at grid point 16·jb + 15. -/
theorem covered (i : S4x1x256.Idx) :
    ∃ t : Fin cfg0.N, (cfg0.win 2).flush t = true ∧ i ∈ ((cfg0.win 2).blk t).view.set := by
  have h0 : (i 0 : Nat) < 4 := (i 0).isLt
  have h1 : (i 1 : Nat) < 1 := (i 1).isLt
  have h2 : (i 2 : Nat) < 256 := (i 2).isLt
  have hN : cfg0.N = 64 := N_0
  let t : Fin cfg0.N := ⟨16 * (i 0).val + 15, by omega⟩
  have ht : t.val = 16 * (i 0).val + 15 := rfl
  obtain ⟨e0, e1, e2⟩ := outIndex t
  refine ⟨t, (flush0_2 t).mpr (by omega), ?_⟩
  show i ∈ ((View.whole main_v7).slice (win0_2.rect t)).set
  rw [View.set_slice_whole, Rect.mem_set_unit]
  intro a
  match a with
  | ⟨0, _⟩ => show win0_2.index t 0 * 1 ≤ (i 0 : Nat) ∧ (i 0 : Nat) < win0_2.index t 0 * 1 + 1; omega
  | ⟨1, _⟩ => show win0_2.index t 1 * 1 ≤ (i 1 : Nat) ∧ (i 1 : Nat) < win0_2.index t 1 * 1 + 1; omega
  | ⟨2, _⟩ => show win0_2.index t 2 * 256 ≤ (i 2 : Nat) ∧ (i 2 : Nat) < win0_2.index t 2 * 256 + 256; omega

/-- So after the launch the result array is `blockShares`. -/
theorem final_shares (c : Dev nD) : (dats m 0 c).arrAt 2 cfg0.N = blockShares m c :=
  (dats m 0 c).arrAt_eq_of_cover 2 (blockShares m c) (flushed_eq m c) covered

/-- After the launch the kernel's result array holds, at (jb, 0, b), column block `jb`'s share of sample `b`'s pair energy. -/
theorem region_value (c : Dev nD) (jb : Fin 4) (b : Fin 256) :
    ((dats m 0 c).arrAt 2 cfg0.N : S4x1x256.Idx → EReal) (ix3 jb 0 b) = Spin.blockPair (Jm m c) (oh m c) jb b := by
  rw [final_shares]
  rfl

end Cert.KernelIdeal.KV
end
-- ==== Proof.KHostPre.lean ====
import proofs.«410947_j90460601188757_3_alg».proof.Proof.KArrays
import Idealize.ShloMosaic.Lib.Pipeline.Value
import Idealize.ShloMosaic.Lib.ValueLayout
import Idealize.ShloMosaic.Lib.StableHlo.Run
import Idealize.ShloMosaic.Lib.StableHlo.Predicate

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KV
open Cert.KernelIdeal Cert.KernelIdeal.Gen
variable (m : (ℓ : Loc nD τ sig) → Buf (Elt Ideal) ℓ)

/-- A word in [0, 20] clipped to [0, 20] is itself. -/
theorem clip_word (w : BitVec 32) (hw : w.toNat < 21) : IntOp.minsi 20#32 (IntOp.maxsi 0#32 w) = w := by
  have hti : w.toInt = w.toNat := StableHlo.Predicate.toInt_eq_toNat_of_lt (by omega)
  have h0 : (0#32 : BitVec 32).toInt = 0 := by decide
  have h20 : (20#32 : BitVec 32).toInt = 20 := by decide
  have h1 : w.slt 0#32 = false := by
    simp only [BitVec.slt, hti, h0, decide_eq_false_iff_not]; omega
  have hmax : IntOp.maxsi 0#32 w = w := by
    unfold IntOp.maxsi; rw [h1]; rfl
  rw [hmax]
  have h2 : (20#32 : BitVec 32).slt w = false := by
    simp only [BitVec.slt, hti, h20, decide_eq_false_iff_not]; omega
  unfold IntOp.minsi; rw [h2]; rfl

/-- The configuration clipped to [0, 20], as the host operations compute it. -/
def clipped (cfg : IVec S256x512 32) : IVec S256x512 32 :=
  minsi (broadcastInDim S256x512 ![] bcast_S_S256x512 (constantI S_ 32 20#32))
    (maxsi (broadcastInDim S256x512 ![] bcast_S_S256x512 (constantI S_ 32 0#32)) cfg)

/-- Clipping an in-range configuration changes nothing. -/
theorem clipped_eq (cfg : IVec S256x512 32) (hr : Spin.InRange cfg) : clipped cfg = cfg := by
  funext j
  have hj : (cfg j).toNat < 21 := by
    rw [eq_ix2 j]; exact hr (j 0) (j 1)
  show IntOp.minsi (broadcastInDim S256x512 ![] bcast_S_S256x512 (constantI S_ 32 20#32) j)
      (IntOp.maxsi (broadcastInDim S256x512 ![] bcast_S_S256x512 (constantI S_ 32 0#32) j) (cfg j)) = cfg j
  have b20 : broadcastInDim S256x512 ![] bcast_S_S256x512 (constantI S_ 32 20#32) j = 20#32 :=
    broadcastInDim_apply _ _ _ j ix0 (fun a => a.elim0)
  have b0 : broadcastInDim S256x512 ![] bcast_S_S256x512 (constantI S_ 32 0#32) j = 0#32 :=
    broadcastInDim_apply _ _ _ j ix0 (fun a => a.elim0)
  rw [b20, b0]
  exact clip_word _ hj

/-- Clipping an in-range configuration to [0, 20] changes nothing. -/
theorem V0_clip (c : Dev nD) (hr : Spin.InRange (m ((c.tc : Thread nD τ).loc main_arg0))) :
    V m c main_v0 = m ((c.tc : Thread nD τ).loc main_arg0) := by
  have e : (V m c main_v0 : IVec S256x512 32) = clipped (m ((c.tc : Thread nD τ).loc main_arg0)) := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
    rfl
  exact e.trans (clipped_eq _ hr)

/-- The matrix the launch finds is the couplings with (site, state) flattened on both sides: the transpose
    (0, 2, 1, 3) puts (site, state) pairs side by side, the row-major reshape reads position 21 · site + state,
    and the change of format is the identity on extended reals. -/
theorem Jm_eq (c : Dev nD) (p q : Fin 10752) :
    Jm m c p q = Spin.flatJ (m ((c.tc : Thread nD τ).loc main_arg1)) p q := by
  have e : (V m c main_v3 : S10752x10752.Idx → EReal) =
      (truncf .bf16 (shapeCast S10752x10752
        (transpose S512x21x512x21 [0, 2, 1, 3] (m ((c.tc : Thread nD τ).loc main_arg1) : S512x512x21x21.Idx → EReal)
          transposes_S512x512x21x21_S512x21x512x21_0_2_1_3)
        shapeCasts_S512x21x512x21_S10752x10752 : FVec Ideal S10752x10752 .f32) bitsLt_bf16_f32 : FVec Ideal S10752x10752 .bf16) := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
    rfl
  unfold Jm
  rw [e, truncf_apply]
  refine (shapeCast_apply _ _ (ix2 p q) (ix4 (Spin.siteOf p) (Spin.stateOf p) (Spin.siteOf q) (Spin.stateOf q)) ?_).trans ?_
  · rw [Shape.rowMajor_val_four, Shape.rowMajor_val_two]
    show (((p.val / 21) * 21 + p.val % 21) * 512 + q.val / 21) * 21 + q.val % 21 = p.val * 10752 + q.val
    omega
  · refine (transpose_apply _ _ _ _ (ix4 (Spin.siteOf p) (Spin.siteOf q) (Spin.stateOf p) (Spin.stateOf q)) ?_).trans rfl
    intro b
    match b with
    | ⟨0, _⟩ => rfl
    | ⟨1, _⟩ => rfl
    | ⟨2, _⟩ => rfl
    | ⟨3, _⟩ => rfl

/-- The one-hot operand as the host operations compute it from a configuration. -/
def ohTerm (cfg : IVec S256x512 32) : S10752x256.Idx → EReal :=
  shapeCast S10752x256
    (transpose S512x21x256 [1, 2, 0]
      ((uitofp .bf16
        (cmpi .eq
          (broadcastInDim S256x512x21 ![0, 1, 2] bcast_S256x512x1_S256x512x21_0_1_2
            (broadcastInDim S256x512x1 ![0, 1] bcast_S256x512_S256x512x1_0_1 cfg))
          (broadcastInDim S256x512x21 ![0, 1, 2] bcast_S1x1x21_S256x512x21_0_1_2 (iotaInDim S1x1x21 32 2))) : FVec Ideal S256x512x21 .bf16))
      transposes_S256x512x21_S512x21x256_1_2_0)
    shapeCasts_S512x21x256_S10752x256

/-- The one-hot term at position (21·site + state, sample b): the compare of the sample's word at the site with the state. -/
theorem ohTerm_apply (cfg : IVec S256x512 32) (p : Fin 10752) (b : Fin 256) :
    ohTerm cfg (ix2 p b)
      = (((IntOp.cmpi .eq (cfg (ix2 b (Spin.siteOf p))) (BitVec.ofNat 32 (Spin.stateOf p).val)).toNat : ℝ) : EReal) := by
  unfold ohTerm
  refine (shapeCast_apply _ _ (ix2 p b) (ix3 (Spin.siteOf p) (Spin.stateOf p) b) ?_).trans ?_
  · rw [Shape.rowMajor_val_three, Shape.rowMajor_val_two]
    show ((p.val / 21) * 21 + p.val % 21) * 256 + b.val = p.val * 256 + b.val
    omega
  refine (transpose_apply _ _ _ _ (ix3 b (Spin.siteOf p) (Spin.stateOf p)) ?_).trans ?_
  · intro a
    match a with
    | ⟨0, _⟩ => rfl
    | ⟨1, _⟩ => rfl
    | ⟨2, _⟩ => rfl
  show (((IntOp.cmpi .eq
      (broadcastInDim S256x512x21 ![0, 1, 2] bcast_S256x512x1_S256x512x21_0_1_2
        (broadcastInDim S256x512x1 ![0, 1] bcast_S256x512_S256x512x1_0_1 cfg) (ix3 b (Spin.siteOf p) (Spin.stateOf p)))
      (broadcastInDim S256x512x21 ![0, 1, 2] bcast_S1x1x21_S256x512x21_0_1_2 (iotaInDim S1x1x21 32 2)
        (ix3 b (Spin.siteOf p) (Spin.stateOf p)))).toNat : ℝ) : EReal) = _
  have e1 : broadcastInDim S256x512x21 ![0, 1, 2] bcast_S256x512x1_S256x512x21_0_1_2
        (broadcastInDim S256x512x1 ![0, 1] bcast_S256x512_S256x512x1_0_1 cfg) (ix3 b (Spin.siteOf p) (Spin.stateOf p))
      = cfg (ix2 b (Spin.siteOf p)) := by
    refine (broadcastInDim_apply _ _ _ _ (ix3 b (Spin.siteOf p) (0 : Fin 1)) ?_).trans ?_
    · intro a
      match a with
      | ⟨0, _⟩ => rfl
      | ⟨1, _⟩ => rfl
      | ⟨2, _⟩ => rfl
    refine (broadcastInDim_apply _ _ _ _ (ix2 b (Spin.siteOf p)) ?_).trans rfl
    intro a
    match a with
    | ⟨0, _⟩ => rfl
    | ⟨1, _⟩ => rfl
  have e2 : broadcastInDim S256x512x21 ![0, 1, 2] bcast_S1x1x21_S256x512x21_0_1_2 (iotaInDim S1x1x21 32 2)
        (ix3 b (Spin.siteOf p) (Spin.stateOf p))
      = BitVec.ofNat 32 (Spin.stateOf p).val := by
    refine (broadcastInDim_apply _ _ _ _ (ix3 (0 : Fin 1) (0 : Fin 1) (Spin.stateOf p)) ?_).trans rfl
    intro a
    match a with
    | ⟨0, _⟩ => rfl
    | ⟨1, _⟩ => rfl
    | ⟨2, _⟩ => rfl
  rw [e1, e2]

/-- The one-hot term of an in-range configuration is the one-hot encoding. -/
theorem ohTerm_eq (cfg : IVec S256x512 32) (hr : Spin.InRange cfg) (p : Fin 10752) (b : Fin 256) :
    ohTerm cfg (ix2 p b) = Spin.flatOh cfg p b := by
  rw [ohTerm_apply]
  have hlt : (cfg (ix2 b (Spin.siteOf p))).toNat < 21 := hr b (Spin.siteOf p)
  have hs : (Spin.stateOf p).val < 21 := (Spin.stateOf p).isLt
  unfold Spin.flatOh
  by_cases h : cfg (ix2 b (Spin.siteOf p)) = BitVec.ofNat 32 (Spin.stateOf p).val
  · have hst : Spin.st cfg b (Spin.siteOf p) = Spin.stateOf p := by
      apply Fin.ext
      show (cfg (ix2 b (Spin.siteOf p))).toNat % 21 = (Spin.stateOf p).val
      rw [h, BitVec.toNat_ofNat]; omega
    rw [if_pos hst, StableHlo.Predicate.cmpi_eq_iff.mpr h]
    show (((1 : ℕ) : ℝ) : EReal) = 1
    norm_num
  · have hst : ¬ Spin.st cfg b (Spin.siteOf p) = Spin.stateOf p := by
      intro hc
      apply h
      apply BitVec.eq_of_toNat_eq
      have hv : (cfg (ix2 b (Spin.siteOf p))).toNat % 21 = (Spin.stateOf p).val := congrArg Fin.val hc
      rw [BitVec.toNat_ofNat]; omega
    have hz : IntOp.cmpi .eq (cfg (ix2 b (Spin.siteOf p))) (BitVec.ofNat 32 (Spin.stateOf p).val) = 0#1 :=
      eq_zero_of_ne_one (fun hc => h (StableHlo.Predicate.cmpi_eq_iff.mp hc))
    rw [if_neg hst, hz]
    show (((0 : ℕ) : ℝ) : EReal) = 0
    norm_num

/-- The one-hot operand the launch finds is the one-hot encoding of the configuration. -/
theorem oh_eq (c : Dev nD) (hr : Spin.InRange (m ((c.tc : Thread nD τ).loc main_arg0))) (p : Fin 10752) (b : Fin 256) :
    oh m c p b = Spin.flatOh (m ((c.tc : Thread nD τ).loc main_arg0)) p b := by
  have e : (V m c main_v6 : S10752x256.Idx → EReal) = ohTerm (clipped (m ((c.tc : Thread nD τ).loc main_arg0))) := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
    rfl
  unfold oh
  rw [e, clipped_eq _ hr]
  exact ohTerm_eq _ hr p b

end Cert.KernelIdeal.KV
end
-- ==== Proof.LibTakeAlong.lean ====
/-
  A general lemma: the `stablehlo.gather` that `jnp.take_along_axis(x[None, :, :], idx[:, :, None], axis = 2)` lowers to,
  read at an index. The operand is `x : [N, C]`, the start indices `idx : [R, N, 1, 1]`, the result `[R, N, 1]`; axis 0 of
  the operand is a batching axis paired with axis 1 of the start indices, axis 1 of the operand is collapsed and indexed
  by the one component of the index vector. Result element (r, n, 0) is the operand at row `n` and at column
  `idx[r, n, 0, 0]` read as a signed integer and clamped into [0, C − 1].
-/
import Idealize.ShloMosaic.Lib.ValueIdx

noncomputable section

namespace Cert.LibTakeAlong

open Idealize.ShloMosaic Idealize.ShloMosaic.ValueIdx

variable {α : Type}

/-- Those dimension numbers for an operand `[N, C]`, start indices `[R, N, 1, 1]` and result `[R, N, 1]`; their
    conditions `wf` are decided on a program's literal shapes. -/
abbrev taDims (N C R : Nat)
    (wf : GatherDims.WF ⟨2, ![N, C]⟩ ⟨4, ![R, N, 1, 1]⟩ ⟨3, ![R, N, 1]⟩ [] [1] [0] [1] [1] 3 ![1, 1]) :
    GatherDims ⟨2, ![N, C]⟩ ⟨4, ![R, N, 1, 1]⟩ ⟨3, ![R, N, 1]⟩ where
  offsetDims := []
  collapsedSliceDims := [1]
  operandBatchingDims := [0]
  startIndicesBatchingDims := [1]
  startIndexMap := [1]
  indexVectorDim := 3
  sliceSizes := ![1, 1]
  wf := wf

/-- THE GATHER READ AT (r, n, 0): the operand at row `n` and at the start index `idx[r, n, 0, 0]`, read signed and
    clamped into [0, C − 1]. -/
theorem gather_takeAlong_apply {N C R w : Nat} (hC : 0 < C)
    (wf : GatherDims.WF ⟨2, ![N, C]⟩ ⟨4, ![R, N, 1, 1]⟩ ⟨3, ![R, N, 1]⟩ [] [1] [0] [1] [1] 3 ![1, 1])
    (x : (⟨2, ![N, C]⟩ : Shape).Idx → α) (idx : IVec ⟨4, ![R, N, 1, 1]⟩ w) (r : Fin R) (n : Fin N) :
    Host.gather (taDims N C R wf) x idx (ix3 r n (0 : Fin 1))
      = x (ix2 n ⟨min (idx (ix4 r n (0 : Fin 1) (0 : Fin 1))).toInt.toNat (C - 1), by omega⟩) := by
  unfold Host.gather
  congr 1
  funext a
  refine Fin.ext ?_
  show (taDims N C R wf).start (ix3 r n (0 : Fin 1)) idx a + (taDims N C R wf).batchCoord (ix3 r n (0 : Fin 1)) a
      + (taDims N C R wf).offCoord (ix3 r n (0 : Fin 1)) a = _
  match a with
  | ⟨0, _⟩ =>
    -- operand axis 0 is the batching axis: no start, no offset, the batch coordinate is the result's coordinate n
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by decide⟩ : Fin 2) ∈ (taDims N C R wf).operandBatchingDims from List.mem_singleton.mpr rfl)]
    rfl
  | ⟨1, _⟩ =>
    -- operand axis 1 is collapsed and indexed by the start index's one component, clamped into [0, C − 1]
    rw [GatherDims.batchCoord_eq_zero _ _ _ (fun h => Nat.one_ne_zero (congrArg Fin.val (List.mem_singleton.mp h))),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (taDims N C R wf).startIndexMap from List.mem_singleton.mpr rfl)]
    have hsi : (taDims N C R wf).siIdx (ix3 r n (0 : Fin 1)) ⟨List.idxOf (⟨1, by decide⟩ : Fin 2) (taDims N C R wf).startIndexMap,
        List.idxOf_lt_length_iff.2 (List.mem_singleton.mpr rfl)⟩ = ix4 r n (0 : Fin 1) (0 : Fin 1) := by
      funext b; refine Fin.ext ?_
      match b with
      | ⟨0, _⟩ => rfl
      | ⟨1, _⟩ => rfl
      | ⟨2, _⟩ => rfl
      | ⟨3, _⟩ => rfl
    rw [hsi]
    rfl

end Cert.LibTakeAlong

end
-- ==== Proof.KTail.lean ====
import proofs.«410947_j90460601188757_3_alg».proof.Proof.KArrays
import proofs.«410947_j90460601188757_3_alg».proof.Proof.LibTakeAlong
import Idealize.ShloMosaic.Lib.ReduceAll
import Idealize.ShloMosaic.Lib.Pipeline.Value
import Idealize.ShloMosaic.Lib.ValueLayout
import Idealize.ShloMosaic.Lib.StableHlo.Run
import Idealize.ShloMosaic.Lib.StableHlo.Predicate
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KV
open Cert.KernelIdeal Cert.KernelIdeal.Gen
variable (m : (ℓ : Loc nD τ sig) → Buf (Elt Ideal) ℓ)

/-! ## Words and folds the take_along_axis chain meets -/

/-- A fold by `and` from 1 over words that are all 1 is 1. -/
theorem fold_andi_one {ι : Type} [DecidableEq ι] (S : Finset ι) (x : ι → BitVec 1) (hx : ∀ i ∈ S, x i = 1#1) :
    S.fold IntOp.andi 1#1 x = 1#1 := by
  induction S using Finset.induction_on with
  | empty => rfl
  | insert a S ha ih =>
    rw [Finset.fold_insert ha, hx a (Finset.mem_insert_self _ _), ih fun i hi => hx i (Finset.mem_insert_of_mem hi)]
    rfl

/-- A reduce by `and` from 1 of an array of 1s is 1 at every index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_fold, hinit]
  exact fold_andi_one _ x fun i _ => hx i

/-- A 32-bit word below 21 read signed is itself. -/
theorem toInt_small {w : BitVec 32} (h : w.toNat < 21) : w.toInt = (w.toNat : Int) :=
  StableHlo.Predicate.toInt_eq_toNat_of_lt (by omega)

/-- It is not negative … -/
theorem slt_zero_small {w : BitVec 32} (h : w.toNat < 21) : IntOp.cmpi .slt w 0#32 = 0#1 := by
  refine eq_zero_of_ne_one fun e => ?_
  have := IntOp.cmpi_slt.1 e
  rw [toInt_small h] at this
  simp at this
  omega

theorem sge_zero_small {w : BitVec 32} (h : w.toNat < 21) : IntOp.cmpi .sge w 0#32 = 1#1 := by
  refine IntOp.cmpi_sge.2 ?_
  rw [toInt_small h]
  simp

/-- … and at most 20. -/
theorem sle_twenty_small {w : BitVec 32} (h : w.toNat < 21) : IntOp.cmpi .sle w 20#32 = 1#1 := by
  refine IntOp.cmpi_sle.2 ?_
  rw [toInt_small h]
  have : (20#32 : BitVec 32).toInt = 20 := by decide
  rw [this]
  omega

/-! ## The take_along_axis chain over variables: field array `x`, configuration array `idx` -/

section Chain
variable (x : S512x21.Idx → EReal) (idx : IVec S256x512 32)

/-- The configuration with a unit axis appended. -/
def idx3 : IVec S256x512x1 32 := broadcastInDim S256x512x1 ![0, 1] bcast_S256x512_S256x512x1_0_1 idx

theorem idx3_apply (b : Fin 256) (i : Fin 512) (c : Fin 1) : idx3 idx (ix3 b i c) = idx (ix2 b i) :=
  broadcastInDim_apply _ _ idx _ (ix2 b i) fun a => match a with | ⟨0, _⟩ => rfl | ⟨1, _⟩ => rfl

/-- Negative indices counted from the end: 21 added where the index is below 0. -/
def idx3n : IVec S256x512x1 32 :=
  select (cmpi .slt (idx3 idx) (broadcastInDim S256x512x1 ![] bcast_S_S256x512x1 (constantI S_ 32 0#32)))
    (addi (idx3 idx) (broadcastInDim S256x512x1 ![] bcast_S_S256x512x1 (constantI S_ 32 21#32))) (idx3 idx)

theorem idx3n_apply (hidx : ∀ b i, (idx (ix2 b i)).toNat < 21) (b : Fin 256) (i : Fin 512) (c : Fin 1) :
    idx3n idx (ix3 b i c) = idx (ix2 b i) := by
  show Scalar.select (IntOp.cmpi .slt (idx3 idx (ix3 b i c)) 0#32) (IntOp.addi (idx3 idx (ix3 b i c)) 21#32) (idx3 idx (ix3 b i c)) = _
  rw [idx3_apply, slt_zero_small (hidx b i), select_zero]

/-- The same with the index-vector axis appended. -/
def idx4 : IVec S256x512x1x1 32 := shapeCast S256x512x1x1 (idx3n idx) shapeCasts_S256x512x1_S256x512x1x1

theorem idx4_apply (hidx : ∀ b i, (idx (ix2 b i)).toNat < 21) (b : Fin 256) (i : Fin 512) (c d : Fin 1) :
    idx4 idx (ix4 b i c d) = idx (ix2 b i) := by
  refine (shapeCast_apply (idx3n idx) shapeCasts_S256x512x1_S256x512x1x1 (ix4 b i c d) (ix3 b i c) ?_).trans (idx3n_apply idx hidx b i c)
  rw [Shape.rowMajor_val_three, Shape.rowMajor_val_four]
  show (b.val * 512 + i.val) * 1 + c.val = ((b.val * 512 + i.val) * 1 + c.val) * 1 + d.val
  omega

/-- The test "0 ≤ index ≤ 20", and-reduced over the index-vector axis. -/
def inRange : IVec S256x512x1 1 :=
  Host.reduce IntOp.andi
    (andi (cmpi .sge (idx4 idx) (broadcastInDim S256x512x1x1 ![] bcast_S_S256x512x1x1 (constantI S_ 32 0#32)))
      (cmpi .sle (idx4 idx) (broadcastInDim S256x512x1x1 ![0, 1, 2, 3] bcast_S1x1x1x1_S256x512x1x1_0_1_2_3
        (broadcastInDim S1x1x1x1 ![3] bcast_S1_S1x1x1x1_3 (constantI S1 32 20#32)))))
    (constantI S_ 1 1#1) reducesTo_S256x512x1x1_S256x512x1_d3 h_S_

theorem inRange_apply (hidx : ∀ b i, (idx (ix2 b i)).toNat < 21) (j : S256x512x1.Idx) : inRange idx j = 1#1 := by
  refine reduce_andi_one _ _ _ _ j rfl fun i4 => ?_
  obtain ⟨b, i, c, d, rfl⟩ : ∃ (b : Fin 256) (i : Fin 512) (c d : Fin 1), i4 = ix4 b i c d := ⟨i4 0, i4 1, i4 2, i4 3, eq_ix4 i4⟩
  show IntOp.andi (IntOp.cmpi .sge (idx4 idx (ix4 b i c d)) 0#32) (IntOp.cmpi .sle (idx4 idx (ix4 b i c d)) 20#32) = 1#1
  rw [idx4_apply idx hidx, sge_zero_small (hidx b i), sle_twenty_small (hidx b i)]
  rfl

/-- The field array through its leading unit axis and back. -/
def fld2 : S512x21.Idx → EReal :=
  shapeCast S512x21 (broadcastInDim S1x512x21 ![1, 2] bcast_S512x21_S1x512x21_1_2 x) shapeCasts_S1x512x21_S512x21

theorem fld2_apply (i : Fin 512) (s : Fin 21) : fld2 x (ix2 i s) = x (ix2 i s) :=
  (shapeCast_1ab_ab_apply _ shapeCasts_S1x512x21_S512x21 i s).trans
    (broadcastInDim_apply _ _ x _ (ix2 i s) fun a => match a with | ⟨0, _⟩ => rfl | ⟨1, _⟩ => rfl)

/-- THE CHAIN: where the index is in range the gathered field value, else NaN. -/
def taChain : S256x512x1.Idx → EReal :=
  select (inRange idx) (Host.gather gather_S512x21_S256x512x1x1_S256x512x1_n_1_0_1_1_3_11 (fld2 x) (idx4 idx))
    (broadcastInDim S256x512x1 ![] bcast_S_S256x512x1 (constant (F := Ideal) S_ .f32 0x7FC00000#32))

/-- Under a configuration of states below 21 the chain reads, at (b, i, 0), the field at site `i` and at the state of site `i` in sample `b`. -/
theorem taChain_apply (hidx : ∀ b i, (idx (ix2 b i)).toNat < 21) (b : Fin 256) (i : Fin 512) :
    taChain x idx (ix3 b i (0 : Fin 1)) = x (ix2 i ⟨(idx (ix2 b i)).toNat, hidx b i⟩) := by
  unfold taChain
  rw [select_apply, inRange_apply idx hidx, select_one]
  refine (Cert.LibTakeAlong.gather_takeAlong_apply (N := 512) (C := 21) (R := 256) (by decide)
    gather_S512x21_S256x512x1x1_S256x512x1_n_1_0_1_1_3_11_wf (fld2 x) (idx4 idx) b i).trans ?_
  rw [fld2_apply]
  refine congrArg (fun s => x (ix2 i s)) (Fin.ext ?_)
  show min (idx4 idx (ix4 b i 0 0)).toInt.toNat (21 - 1) = (idx (ix2 b i)).toNat
  rw [idx4_apply idx hidx, toInt_small (hidx b i), Int.toNat_natCast]
  have := hidx b i
  omega

end Chain

/-! ## The tail as a function of the launch's result, the field and the configuration -/

/-- The operations after the launch, composed: one half of the launch's result summed over the column blocks, plus the
    take_along_axis chain summed over the sites. -/
def tailFn (A : S4x1x256.Idx → EReal) (x : S512x21.Idx → EReal) (idx : IVec S256x512 32) : S256.Idx → EReal :=
  addf (mulf (broadcastInDim S256 ![] bcast_S_S256 (constant (F := Ideal) S_ .f32 0x3F000000#32))
      (Host.reduceAdd (F := Ideal) (shapeCast S4x256 A shapeCasts_S4x1x256_S4x256) (constant (F := Ideal) S_ .f32 0x00000000#32)
        reducesTo_S4x256_S256_d0 h_S_))
    (Host.reduceAdd (F := Ideal) (shapeCast S256x512 (taChain x idx) shapeCasts_S256x512x1_S256x512)
      (constant (F := Ideal) S_ .f32 0x00000000#32) reducesTo_S256x512_S256_d1 h_S_)

theorem reduces_S4x256_S256_d0 : S4x256.Reduces [0] S256 := by decide
theorem reduces_S256x512_S256_d1 : S256x512.Reduces [1] S256 := by decide

/-- The tail read at sample `b`, under a configuration of states below 21. -/
theorem tailFn_apply (A : S4x1x256.Idx → EReal) (x : S512x21.Idx → EReal) (idx : IVec S256x512 32)
    (hidx : Spin.InRange idx) (b : Fin 256) :
    tailFn A x idx (ix1 b) = Spin.kerForm (∑ jb : Fin 4, A (ix3 jb 0 b)) (Spin.fieldSum idx x b) := by
  have h1 : Ideal.hostReduceAdd reducesTo_S4x256_S256_d0 (shapeCast S4x256 A shapeCasts_S4x1x256_S4x256)
      (Ideal.ofBits .f32 0x00000000#32) (ix1 b) = 0 + ∑ jb : Fin 4, A (ix3 jb 0 b) := by
    rw [Ideal.hostReduceAdd_single reducesTo_S4x256_S256_d0 reduces_S4x256_S256_d0, Ideal.ofBits_zero_f32]
    refine congrArg (0 + ·) (Finset.sum_congr rfl fun jb _ => ?_)
    refine shapeCast_apply A shapeCasts_S4x1x256_S4x256 _ (ix3 jb 0 b) ?_
    rw [Shape.rowMajor_val_three, Shape.rowMajor_val_two]
    show (jb.val * 1 + 0) * 256 + b.val = jb.val * 256 + b.val
    omega
  have h2 : Ideal.hostReduceAdd reducesTo_S256x512_S256_d1 (shapeCast S256x512 (taChain x idx) shapeCasts_S256x512x1_S256x512)
      (Ideal.ofBits .f32 0x00000000#32) (ix1 b) = 0 + Spin.fieldSum idx x b := by
    rw [Ideal.hostReduceAdd_single reducesTo_S256x512_S256_d1 reduces_S256x512_S256_d1, Ideal.ofBits_zero_f32]
    refine congrArg (0 + ·) (Finset.sum_congr rfl fun i _ => ?_)
    refine (shapeCast_apply (taChain x idx) shapeCasts_S256x512x1_S256x512 _ (ix3 b i 0) ?_).trans ?_
    · rw [Shape.rowMajor_val_three, Shape.rowMajor_val_two]
      show (b.val * 512 + i.val) * 1 + 0 = b.val * 512 + i.val
      omega
    · rw [taChain_apply x idx hidx b i]
      exact congrArg (fun s => x (ix2 i s)) (Fin.ext (Nat.mod_eq_of_lt (hidx b i)).symm)
  show Ideal.ofBits .f32 0x3F000000#32 * Ideal.hostReduceAdd reducesTo_S4x256_S256_d0 (shapeCast S4x256 A shapeCasts_S4x1x256_S4x256)
      (Ideal.ofBits .f32 0x00000000#32) (ix1 b)
    + Ideal.hostReduceAdd reducesTo_S256x512_S256_d1 (shapeCast S256x512 (taChain x idx) shapeCasts_S256x512x1_S256x512)
      (Ideal.ofBits .f32 0x00000000#32) (ix1 b) = _
  rw [h1, h2]
  rfl

/-! ## The tail of the program is that function of the launch's result -/

/-- The host operations after the launch, run on the launch's arrays, leave in the result `tailFn` of the launch's output
    array, the field argument and the clipped configuration. -/
theorem tail_eq (c : Dev nD) :
    (Pipeline.afterTail₀ cfgs (dats m) 0 (V0 m) [hostOps1, hostOps1_1, hostOps1_2] c main_v17 : S256.Idx → EReal)
      = tailFn ((dats m 0 c).arrAt 2 cfg0.N) (V m c main_arg2) (V m c main_v0) := by
  have h7 : Pipeline.withArrays (cfgs 0).spec c (V0 m c) (fun w => (dats m 0 c).arrAt w (cfgs 0).N) (Proc.devRef .tc main_v7)
      = (dats m 0 c).arrAt 2 cfg0.N := Pipeline.withArrays_arr spec0 launch0.win.arr_inj c _ _ 2
  have h0 : Pipeline.withArrays (cfgs 0).spec c (V0 m c) (fun w => (dats m 0 c).arrAt w (cfgs 0).N) (Proc.devRef .tc main_v0)
      = V m c main_v0 :=
    Pipeline.withArrays_of_ne _ c (V0 m c) _ main_v0 (by exact (by decide : ∀ w, Pipeline.arrRef spec0 w ≠ main_v0))
  have h2 : Pipeline.withArrays (cfgs 0).spec c (V0 m c) (fun w => (dats m 0 c).arrAt w (cfgs 0).N) (Proc.devRef .tc main_arg2)
      = V m c main_arg2 :=
    Pipeline.withArrays_of_ne _ c (V0 m c) _ main_arg2 (by exact (by decide : ∀ w, Pipeline.arrRef spec0 w ≠ main_arg2))
  unfold Pipeline.afterTail₀
  simp only [hostOps1, hostOps1_1, hostOps1_2, List.flatten_cons, List.flatten_nil, List.append_nil, List.cons_append, List.nil_append]
  after_results_simp
  rw [h7, h0, h2]
  simp only [StableHlo.TRef.ofBuf, StableHlo.TRef.toBuf, cast_eq]
  rfl

/-- What the host operations after the launch leave in the result: one half of the four column blocks' shares added,
    plus the field energy at the (clipped, hence unchanged) configuration. -/
theorem tail_value (c : Dev nD) (hr : Spin.InRange (m ((c.tc : Thread nD τ).loc main_arg0)))
    (hclip : V m c main_v0 = m ((c.tc : Thread nD τ).loc main_arg0)) (b : Fin 256) :
    (Pipeline.afterTail₀ cfgs (dats m) 0 (V0 m) [hostOps1, hostOps1_1, hostOps1_2] c main_v17 : S256.Idx → EReal) (ix1 b)
      = Spin.kerForm (∑ jb : Fin 4, ((dats m 0 c).arrAt 2 cfg0.N : S4x1x256.Idx → EReal) (ix3 jb 0 b))
          (Spin.fieldSum (m ((c.tc : Thread nD τ).loc main_arg0)) (m ((c.tc : Thread nD τ).loc main_arg2)) b) := by
  refine (congrFun (tail_eq m c) (ix1 b)).trans ?_
  rw [hclip, V_main_arg2]
  exact tailFn_apply _ _ _ hr b

end Cert.KernelIdeal.KV
end
-- ==== Proof.LibGather4.lean ====
/-
  A general lemma: the `stablehlo.gather` that `x[i, j, k, l]` with four integer index arrays lowers to, read at an
  index. The operand is `x : [A, B, C, D]`, the start indices `idx : [R, P, Q, 4]` (the four index arrays joined on a last
  axis), the result `[R, P, Q]`; all four operand axes are collapsed, and component `c` of the index vector indexes
  operand axis `c`. Result element (r, p, q) is the operand at the four start indices `idx[r, p, q, c]`, each read as
  a signed integer and clamped into its axis.
-/
import Idealize.ShloMosaic.Lib.ValueIdx

noncomputable section

namespace Cert.LibGather4

open Idealize.ShloMosaic Idealize.ShloMosaic.ValueIdx

variable {α : Type}

/-- Those dimension numbers for an operand `[A, B, C, D]`, start indices `[R, P, Q, 4]` and result `[R, P, Q]`; their
    conditions `wf` are decided on a program's literal shapes. -/
abbrev quadDims (A B C D R P Q : Nat)
    (wf : GatherDims.WF ⟨4, ![A, B, C, D]⟩ ⟨4, ![R, P, Q, 4]⟩ ⟨3, ![R, P, Q]⟩ [] [0, 1, 2, 3] [] [0, 1, 2, 3] [] 3 ![1, 1, 1, 1]) :
    GatherDims ⟨4, ![A, B, C, D]⟩ ⟨4, ![R, P, Q, 4]⟩ ⟨3, ![R, P, Q]⟩ where
  offsetDims := []
  collapsedSliceDims := [0, 1, 2, 3]
  operandBatchingDims := []
  startIndicesBatchingDims := []
  startIndexMap := [0, 1, 2, 3]
  indexVectorDim := 3
  sliceSizes := ![1, 1, 1, 1]
  wf := wf

/-- THE GATHER READ AT (r, p, q): the operand at the four start indices `idx[r, p, q, c]`, each read signed and clamped
    into its axis. -/
theorem gather_quad_apply {A B C D R P Q w : Nat} (hA : 0 < A) (hB : 0 < B) (hC : 0 < C) (hD : 0 < D)
    (wf : GatherDims.WF ⟨4, ![A, B, C, D]⟩ ⟨4, ![R, P, Q, 4]⟩ ⟨3, ![R, P, Q]⟩ [] [0, 1, 2, 3] [] [0, 1, 2, 3] [] 3 ![1, 1, 1, 1])
    (x : (⟨4, ![A, B, C, D]⟩ : Shape).Idx → α) (idx : IVec ⟨4, ![R, P, Q, 4]⟩ w) (r : Fin R) (p : Fin P) (q : Fin Q) :
    Host.gather (quadDims A B C D R P Q wf) x idx (ix3 r p q)
      = x (ix4 ⟨min (idx (ix4 r p q (0 : Fin 4))).toInt.toNat (A - 1), by omega⟩
               ⟨min (idx (ix4 r p q (1 : Fin 4))).toInt.toNat (B - 1), by omega⟩
               ⟨min (idx (ix4 r p q (2 : Fin 4))).toInt.toNat (C - 1), by omega⟩
               ⟨min (idx (ix4 r p q (3 : Fin 4))).toInt.toNat (D - 1), by omega⟩) := by
  unfold Host.gather
  congr 1
  funext a
  refine Fin.ext ?_
  show (quadDims A B C D R P Q wf).start (ix3 r p q) idx a + (quadDims A B C D R P Q wf).batchCoord (ix3 r p q) a
      + (quadDims A B C D R P Q wf).offCoord (ix3 r p q) a = _
  -- every operand axis is collapsed and not batching: no batch coordinate, no offset; axis c starts at component c of
  -- the index vector, clamped into the axis
  match a with
  | ⟨0, _⟩ =>
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (⟨0, by decide⟩ : Fin 4) ∈ (quadDims A B C D R P Q wf).startIndexMap from by simp)]
    have hsi : (quadDims A B C D R P Q wf).siIdx (ix3 r p q) ⟨List.idxOf (⟨0, by decide⟩ : Fin 4) (quadDims A B C D R P Q wf).startIndexMap,
        List.idxOf_lt_length_iff.2 (by simp)⟩ = ix4 r p q (0 : Fin 4) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (⟨1, by decide⟩ : Fin 4) ∈ (quadDims A B C D R P Q wf).startIndexMap from by simp)]
    have hsi : (quadDims A B C D R P Q wf).siIdx (ix3 r p q) ⟨List.idxOf (⟨1, by decide⟩ : Fin 4) (quadDims A B C D R P Q wf).startIndexMap,
        List.idxOf_lt_length_iff.2 (by simp)⟩ = ix4 r p q (1 : Fin 4) := by
      funext b; refine Fin.ext ?_
      match b with
      | ⟨0, _⟩ => rfl
      | ⟨1, _⟩ => rfl
      | ⟨2, _⟩ => rfl
      | ⟨3, _⟩ => rfl
    rw [hsi]
    rfl
  | ⟨2, _⟩ =>
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (⟨2, by decide⟩ : Fin 4) ∈ (quadDims A B C D R P Q wf).startIndexMap from by simp)]
    have hsi : (quadDims A B C D R P Q wf).siIdx (ix3 r p q) ⟨List.idxOf (⟨2, by decide⟩ : Fin 4) (quadDims A B C D R P Q wf).startIndexMap,
        List.idxOf_lt_length_iff.2 (by simp)⟩ = ix4 r p q (2 : Fin 4) := by
      funext b; refine Fin.ext ?_
      match b with
      | ⟨0, _⟩ => rfl
      | ⟨1, _⟩ => rfl
      | ⟨2, _⟩ => rfl
      | ⟨3, _⟩ => rfl
    rw [hsi]
    rfl
  | ⟨3, _⟩ =>
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (⟨3, by decide⟩ : Fin 4) ∈ (quadDims A B C D R P Q wf).startIndexMap from by simp)]
    have hsi : (quadDims A B C D R P Q wf).siIdx (ix3 r p q) ⟨List.idxOf (⟨3, by decide⟩ : Fin 4) (quadDims A B C D R P Q wf).startIndexMap,
        List.idxOf_lt_length_iff.2 (by simp)⟩ = ix4 r p q (3 : Fin 4) := by
      funext b; refine Fin.ext ?_
      match b with
      | ⟨0, _⟩ => rfl
      | ⟨1, _⟩ => rfl
      | ⟨2, _⟩ => rfl
      | ⟨3, _⟩ => rfl
    rw [hsi]
    rfl

end Cert.LibGather4

end
-- ==== Proof.RefPair.lean ====
import proofs.«410947_j90460601188757_3_alg».proof.Proof.RefStages
import proofs.«410947_j90460601188757_3_alg».proof.Proof.Spec
import proofs.«410947_j90460601188757_3_alg».proof.Proof.LibGather4
import Idealize.ShloMosaic.Lib.ValueLayout
import Idealize.ShloMosaic.Lib.StableHlo.Predicate

set_option maxRecDepth 16384

noncomputable section

open scoped BigOperators
open Idealize.ShloMosaic Idealize.ShloMosaic.TcCoe Idealize.SL.Sem Idealize.ShloMosaic.ValueIdx

namespace Cert.ReferenceIdeal.RefV
open Cert.ReferenceIdeal Cert.ReferenceIdeal.Gen Cert.ReferenceIdeal.ReadP
open Idealize.ShloMosaic.StableHlo.Predicate

/-- A word below 2³¹ is not negative, so the index normalisation keeps it. -/
theorem norm_keep (w c : BitVec 32) (hw : w.toNat < 2 ^ 31) :
    Scalar.select (IntOp.cmpi .slt w 0#32) (IntOp.addi w c) w = w := by
  have h : ¬ IntOp.cmpi .slt w 0#32 = 1#1 := by
    rw [slt_iff_toNat hw (by decide)]; simp
  rw [eq_zero_of_ne_one h, select_zero]

/-- The first index array at (b, i, j): the site i as a word. -/
theorem v34_at (b : Fin 256) (i j : Fin 512) :
    val_main_v34 (F := Ideal) (ix4 b i j (0 : Fin 1)) = BitVec.ofNat 32 i.val := by
  rw [val_main_v34_apply, val_main_v30_apply, val_main_v26_apply, val_main_v10_apply, val_main_v7_apply,
    val_main_v9_apply, val_main_v1_apply, val_main_v0_apply, val_main_v6_apply, val_main_c_apply]
  show Scalar.select (IntOp.cmpi .slt (BitVec.ofNat 32 i.val) 0#32) (IntOp.addi (BitVec.ofNat 32 i.val) _) (BitVec.ofNat 32 i.val) = _
  exact norm_keep _ _ (by rw [BitVec.toNat_ofNat]; have := i.isLt; omega)

/-- The second index array at (b, i, j): the site j as a word. -/
theorem v35_at (b : Fin 256) (i j : Fin 512) :
    val_main_v35 (F := Ideal) (ix4 b i j (0 : Fin 1)) = BitVec.ofNat 32 j.val := by
  rw [val_main_v35_apply, val_main_v31_apply, val_main_v27_apply, val_main_v15_apply, val_main_v12_apply,
    val_main_v14_apply, val_main_v3_apply, val_main_v2_apply, val_main_v11_apply, val_main_c_1_apply]
  show Scalar.select (IntOp.cmpi .slt (BitVec.ofNat 32 j.val) 0#32) (IntOp.addi (BitVec.ofNat 32 j.val) _) (BitVec.ofNat 32 j.val) = _
  exact norm_keep _ _ (by rw [BitVec.toNat_ofNat]; have := j.isLt; omega)

/-- The third index array at (b, i, j): the state of site i in sample b. -/
theorem v32_at (cfg : IVec S256x512 32) (hr : Spin.InRange cfg) (b : Fin 256) (i j : Fin 512) :
    val_main_v32 (F := Ideal) cfg (ix4 b i j (0 : Fin 1)) = cfg (ix2 b i) := by
  rw [val_main_v32_apply, val_main_v28_apply, val_main_v20_apply, val_main_v17_apply,
    val_main_v19_apply, val_main_v4_apply, val_main_v16_apply, val_main_c_3_apply]
  have e : idx_main_v4 (idx_main_v28 (idx_main_v32 (ix4 b i j (0 : Fin 1)))) = ix2 b i := by
    funext a; match a with | ⟨0, _⟩ => rfl | ⟨1, _⟩ => rfl
  rw [e]
  exact norm_keep _ _ (by have := hr b i; omega)

/-- The fourth index array at (b, i, j): the state of site j in sample b. -/
theorem v33_at (cfg : IVec S256x512 32) (hr : Spin.InRange cfg) (b : Fin 256) (i j : Fin 512) :
    val_main_v33 (F := Ideal) cfg (ix4 b i j (0 : Fin 1)) = cfg (ix2 b j) := by
  rw [val_main_v33_apply, val_main_v29_apply, val_main_v25_apply, val_main_v22_apply,
    val_main_v24_apply, val_main_v5_apply, val_main_v21_apply, val_main_c_5_apply]
  have e : idx_main_v5 (idx_main_v29 (idx_main_v33 (ix4 b i j (0 : Fin 1)))) = ix2 b j := by
    funext a; match a with | ⟨0, _⟩ => rfl | ⟨1, _⟩ => rfl
  rw [e]
  exact norm_keep _ _ (by have := hr b j; omega)

/-- The joined index array at component 0: the first piece. -/
theorem v36_at0 (cfg : IVec S256x512 32) (b : Fin 256) (i j : Fin 512) :
    val_main_v36 (F := Ideal) cfg (ix4 b i j (0 : Fin 4)) = val_main_v34 (F := Ideal) (ix4 b i j (0 : Fin 1)) := by
  unfold val_main_v36
  refine concatenate_apply_piece (t := S256x512x512x4) 3 _ _ (ix4 b i j (0 : Fin 4)) 0 (by simp) S256x512x512x1
    (val_main_v34 (F := Ideal) ) rfl (by rfl) 0 (by rfl) (ix4 b i j (0 : Fin 1)) ?_ ?_
  · intro a ha
    match a with
    | ⟨0, _⟩ => rfl
    | ⟨1, _⟩ => rfl
    | ⟨2, _⟩ => rfl
    | ⟨3, _⟩ => exact absurd rfl ha
  · rfl

/-- The joined index array at component 1: the second piece. -/
theorem v36_at1 (cfg : IVec S256x512 32) (b : Fin 256) (i j : Fin 512) :
    val_main_v36 (F := Ideal) cfg (ix4 b i j (1 : Fin 4)) = val_main_v35 (F := Ideal) (ix4 b i j (0 : Fin 1)) := by
  unfold val_main_v36
  refine concatenate_apply_piece (t := S256x512x512x4) 3 _ _ (ix4 b i j (1 : Fin 4)) 1 (by simp) S256x512x512x1
    (val_main_v35 (F := Ideal) ) rfl (by rfl) 1 (by rfl) (ix4 b i j (0 : Fin 1)) ?_ ?_
  · intro a ha
    match a with
    | ⟨0, _⟩ => rfl
    | ⟨1, _⟩ => rfl
    | ⟨2, _⟩ => rfl
    | ⟨3, _⟩ => exact absurd rfl ha
  · rfl

/-- The joined index array at component 2: the third piece. -/
theorem v36_at2 (cfg : IVec S256x512 32) (b : Fin 256) (i j : Fin 512) :
    val_main_v36 (F := Ideal) cfg (ix4 b i j (2 : Fin 4)) = val_main_v32 (F := Ideal) cfg (ix4 b i j (0 : Fin 1)) := by
  unfold val_main_v36
  refine concatenate_apply_piece (t := S256x512x512x4) 3 _ _ (ix4 b i j (2 : Fin 4)) 2 (by simp) S256x512x512x1
    (val_main_v32 (F := Ideal) cfg) rfl (by rfl) 2 (by rfl) (ix4 b i j (0 : Fin 1)) ?_ ?_
  · intro a ha
    match a with
    | ⟨0, _⟩ => rfl
    | ⟨1, _⟩ => rfl
    | ⟨2, _⟩ => rfl
    | ⟨3, _⟩ => exact absurd rfl ha
  · rfl

/-- The joined index array at component 3: the fourth piece. -/
theorem v36_at3 (cfg : IVec S256x512 32) (b : Fin 256) (i j : Fin 512) :
    val_main_v36 (F := Ideal) cfg (ix4 b i j (3 : Fin 4)) = val_main_v33 (F := Ideal) cfg (ix4 b i j (0 : Fin 1)) := by
  unfold val_main_v36
  refine concatenate_apply_piece (t := S256x512x512x4) 3 _ _ (ix4 b i j (3 : Fin 4)) 3 (by simp) S256x512x512x1
    (val_main_v33 (F := Ideal) cfg) rfl (by rfl) 3 (by rfl) (ix4 b i j (0 : Fin 1)) ?_ ?_
  · intro a ha
    match a with
    | ⟨0, _⟩ => rfl
    | ⟨1, _⟩ => rfl
    | ⟨2, _⟩ => rfl
    | ⟨3, _⟩ => exact absurd rfl ha
  · rfl

/-- The indices of a [256, 512, 512] array that drop to sample b under a sum over the two site axes are the pairs of
    sites, so the sum over them is the double sum over sites. -/
theorem sum_drop_sites {M : Type} [AddCommMonoid M] (x : S256x512x512.Idx → M) (b : Fin 256) :
    ∑ i ∈ Finset.univ.filter (fun i => reducesTo_S256x512x512_S256_d1_2.drop i = ix1 b), x i
      = ∑ p : Fin 512, ∑ q : Fin 512, x (ix3 b p q) := by
  rw [← Fintype.sum_prod_type' (f := fun p q => x (ix3 b p q))]
  have hb : ∀ i : S256x512x512.Idx, reducesTo_S256x512x512_S256_d1_2.drop i = ix1 b → i 0 = b := by
    intro i hi
    have h0 := congrArg (fun (j : S256.Idx) => (j 0).val) hi
    have h1 : ((reducesTo_S256x512x512_S256_d1_2.drop i) 0 : Nat) = i 0 :=
      Shape.ReducesTo.drop_apply_val_of_eq reducesTo_S256x512x512_S256_d1_2 i 0 0
    exact Fin.ext (by rw [← h1]; exact h0)
  refine Finset.sum_nbij' (fun i => ((i 1, i 2) : Fin 512 × Fin 512)) (fun pq => ix3 b pq.1 pq.2) ?_ ?_ ?_ ?_ ?_
  · intro i _; exact Finset.mem_univ _
  · intro pq _
    refine Finset.mem_filter.2 ⟨Finset.mem_univ _, ?_⟩
    funext a
    match a with
    | ⟨0, _⟩ => exact Fin.ext (Shape.ReducesTo.drop_apply_val_of_eq reducesTo_S256x512x512_S256_d1_2 _ 0 0)
  · intro i hi
    have h0 := hb i (Finset.mem_filter.1 hi).2
    show ix3 b (i 1) (i 2) = i
    rw [← h0]; exact (eq_ix3 i).symm
  · intro pq _; rfl
  · intro i hi
    have h0 := hb i (Finset.mem_filter.1 hi).2
    show x i = x (ix3 b (i 1) (i 2))
    rw [← h0]; exact congrArg x (eq_ix3 i)

/-- The gathered coupling at (b, p, q): the coupling of sites p, q at the sample's states there. -/
theorem v37_at (cfg : IVec S256x512 32) (J : FVec Ideal S512x512x21x21 .f32) (hr : Spin.InRange cfg)
    (b : Fin 256) (p q : Fin 512) :
    (val_main_v37 (F := Ideal) cfg J : S256x512x512.Idx → EReal) (ix3 b p q)
      = J (ix4 p q (Spin.st cfg b p) (Spin.st cfg b q)) := by
  have e0 : (val_main_v36 (F := Ideal) cfg (ix4 b p q (0 : Fin 4))).toInt.toNat = p.val := by
    rw [v36_at0, v34_at, toInt_ofNat_small _ (by have := p.isLt; omega)]; rfl
  have e1 : (val_main_v36 (F := Ideal) cfg (ix4 b p q (1 : Fin 4))).toInt.toNat = q.val := by
    rw [v36_at1, v35_at, toInt_ofNat_small _ (by have := q.isLt; omega)]; rfl
  have e2 : (val_main_v36 (F := Ideal) cfg (ix4 b p q (2 : Fin 4))).toInt.toNat = (cfg (ix2 b p)).toNat := by
    rw [v36_at2, v32_at cfg hr, toInt_eq_toNat_of_lt (by have := hr b p; omega)]; rfl
  have e3 : (val_main_v36 (F := Ideal) cfg (ix4 b p q (3 : Fin 4))).toInt.toNat = (cfg (ix2 b q)).toNat := by
    rw [v36_at3, v33_at cfg hr, toInt_eq_toNat_of_lt (by have := hr b q; omega)]; rfl
  unfold val_main_v37
  show Host.gather (Cert.LibGather4.quadDims 512 512 21 21 256 512 512
      gather_S512x512x21x21_S256x512x512x4_S256x512x512_n_0123_n_n_0123_3_1111_wf) J (val_main_v36 (F := Ideal) cfg) (ix3 b p q) = _
  rw [Cert.LibGather4.gather_quad_apply (by decide) (by decide) (by decide) (by decide)]
  congr 1
  funext a
  match a with
  | ⟨0, _⟩ => exact Fin.ext (by show min _ (512 - 1) = p.val; rw [e0]; have := p.isLt; omega)
  | ⟨1, _⟩ => exact Fin.ext (by show min _ (512 - 1) = q.val; rw [e1]; have := q.isLt; omega)
  | ⟨2, _⟩ => exact Fin.ext (by show min _ (21 - 1) = (cfg (ix2 b p)).toNat % 21; rw [e2]; have := hr b p; omega)
  | ⟨3, _⟩ => exact Fin.ext (by show min _ (21 - 1) = (cfg (ix2 b q)).toNat % 21; rw [e3]; have := hr b q; omega)

/-- The gathered couplings summed over both site axes: the pair energy, from zero. -/
theorem ref_pair (cfg : IVec S256x512 32) (J : FVec Ideal S512x512x21x21 .f32) (hr : Spin.InRange cfg) (b : Fin 256) :
    (val_main_v38 (F := Ideal) cfg J : S256.Idx → EReal) (ix1 b) = 0 + Spin.pairSum cfg J b := by
  unfold val_main_v38
  show Ideal.hostReduceAdd reducesTo_S256x512x512_S256_d1_2 (val_main_v37 (F := Ideal) cfg J)
      (Ideal.ofBits .f32 0x00000000#32) (ix1 b) = _
  unfold Ideal.hostReduceAdd
  rw [sum_drop_sites, Ideal.ofBits_zero_f32]
  unfold Spin.pairSum
  congr 1
  exact Finset.sum_congr rfl fun p _ => Finset.sum_congr rfl fun q _ => v37_at cfg J hr b p q

end Cert.ReferenceIdeal.RefV
end
-- ==== Proof.RefField.lean ====
import proofs.«410947_j90460601188757_3_alg».proof.Proof.RefStages
import proofs.«410947_j90460601188757_3_alg».proof.Proof.Spec
import proofs.«410947_j90460601188757_3_alg».proof.Proof.LibTakeAlong
import Idealize.ShloMosaic.Lib.ValueLayout
import Idealize.ShloMosaic.Lib.StableHlo.Predicate

set_option maxRecDepth 16384

noncomputable section

open scoped BigOperators
open Idealize.ShloMosaic Idealize.ShloMosaic.TcCoe Idealize.SL.Sem Idealize.ShloMosaic.ValueIdx

namespace Cert.ReferenceIdeal.RefV
open Cert.ReferenceIdeal Cert.ReferenceIdeal.Gen Cert.ReferenceIdeal.ReadP
open Idealize.ShloMosaic.StableHlo.Predicate (slt_iff_toNat sle_iff_toNat sge_iff_toNat toInt_eq_toNat_of_lt)

section Chain
variable {F : FTy → Type} [FloatOps F]

/-- A fold of one-bit words by `and`, started at 1, over words that are all 1 is 1. -/
theorem fold_andi_eq_one {ι : Type} (S : Finset ι) (f : ι → BitVec 1) (h : ∀ i ∈ S, f i = 1#1) :
    S.fold IntOp.andi 1#1 f = 1#1 := by
  induction S using Finset.cons_induction with
  | empty => rfl
  | cons a S ha ih =>
    rw [Finset.fold_cons, h a (Finset.mem_cons_self _ _), ih (fun i hi => h i (Finset.mem_cons_of_mem hi))]
    rfl

/-- The index word of site `k` in sample `b` after the normalising select (a negative word moved up by 21): a word
    that is a state is not negative and is kept. -/
theorem word3_apply (cfg : IVec S256x512 32) (b : Fin 256) (k : Fin 512) (h : (cfg (ix2 b k)).toNat < 21) :
    val_main_call0_v4 (F := F) cfg (ix3 b k (0 : Fin 1)) = cfg (ix2 b k) := by
  have hi : idx_main_v42 (ix3 b k (0 : Fin 1)) = ix2 b k := by
    funext a; match a with | ⟨0, _⟩ => rfl | ⟨1, _⟩ => rfl
  rw [val_main_call0_v4_apply, val_main_call0_v1_apply, val_main_v42_apply, val_main_call0_v0_apply,
    val_main_call0_c_apply, hi]
  have hlt : ¬ IntOp.cmpi .slt (cfg (ix2 b k)) 0#32 = 1#1 := by
    rw [slt_iff_toNat (by omega) (by decide)]
    exact Nat.not_lt_zero _
  rw [eq_zero_of_ne_one hlt, select_zero]

/-- The same word on the start-index array of the gather (a reshape of the normalised words). -/
theorem word4_apply (cfg : IVec S256x512 32) (b : Fin 256) (k : Fin 512) (h : (cfg (ix2 b k)).toNat < 21) :
    val_main_call0_v5 (F := F) cfg (ix4 b k (0 : Fin 1) (0 : Fin 1)) = cfg (ix2 b k) := by
  have hb := b.isLt
  have hk := k.isLt
  have hi : idx_main_call0_v5 (ix4 b k (0 : Fin 1) (0 : Fin 1)) = ix3 b k (0 : Fin 1) := by
    funext a
    match a with
    | ⟨0, _⟩ => exact Fin.ext (by show (((b.val * 512 + k.val) * 1 + 0) * 1 + 0) / 512 = b.val; omega)
    | ⟨1, _⟩ => exact Fin.ext (by show (((b.val * 512 + k.val) * 1 + 0) * 1 + 0) / 1 % 512 = k.val; omega)
    | ⟨2, _⟩ => rfl
  rw [val_main_call0_v5_apply, hi, word3_apply cfg b k h]

end Chain

section Chain2
variable {F : FTy → Type} [FloatOps F]

/-- The in-range test of the gather's start index (0 ≤ w and w ≤ 20, and-reduced over the index vector's one
    component) is true at a word that is a state. -/
theorem inRange_apply (cfg : IVec S256x512 32) (b : Fin 256) (k : Fin 512) (h : (cfg (ix2 b k)).toNat < 21) :
    val_main_call0_v13 (F := F) cfg (ix3 b k (0 : Fin 1)) = 1#1 := by
  have hred : S256x512x1x1.Reduces [3] S256x512x1 := by decide
  unfold val_main_call0_v13
  rw [Host.reduce_eq_fold_single IntOp.andi _ _ reducesTo_S256x512x1x1_S256x512x1_d3 hred h_S_,
    val_main_call0_c_3_apply]
  refine fold_andi_eq_one _ _ fun i _ => ?_
  have hl : hred.lift (ix3 b k (0 : Fin 1)) i = ix4 b k (0 : Fin 1) (0 : Fin 1) := by
    funext a
    match a with
    | ⟨0, _⟩ => rfl
    | ⟨1, _⟩ => rfl
    | ⟨2, _⟩ => exact @Subsingleton.elim (Fin 1) _ _ _
    | ⟨3, _⟩ => exact @Subsingleton.elim (Fin 1) _ _ _
  show val_main_call0_v12 (F := F) cfg (hred.lift (ix3 b k (0 : Fin 1)) i) = 1#1
  rw [hl, val_main_call0_v12_apply, val_main_call0_v8_apply, val_main_call0_v11_apply, word4_apply cfg b k h,
    val_main_call0_v7_apply, val_main_call0_c_2_apply, val_main_call0_v10_apply, val_main_call0_v9_apply,
    val_main_call0_c_1_apply]
  have h20 : (20#32 : BitVec 32).toNat = 20 := rfl
  rw [(sge_iff_toNat (by omega) (by decide)).mpr (Nat.zero_le _),
    (sle_iff_toNat (by omega) (by decide)).mpr (by rw [h20]; omega)]
  rfl

/-- The gather's operand (the field broadcast to [1, 512, 21] and reshaped back) is the field, entry by entry. -/
theorem operand_apply (fld : FVec F S512x21 .f32) (k : Fin 512) (s : Fin 21) :
    val_main_call0_v6 (F := F) fld (ix2 k s) = fld (ix2 k s) := by
  have hk := k.isLt
  have hs := s.isLt
  have hi : idx_main_v41 (idx_main_call0_v6 (ix2 k s)) = ix2 k s := by
    funext a
    match a with
    | ⟨0, _⟩ => exact Fin.ext (by show (k.val * 21 + s.val) / 21 % 512 = k.val; omega)
    | ⟨1, _⟩ => exact Fin.ext (by show (k.val * 21 + s.val) % 21 = s.val; omega)
  rw [val_main_call0_v6_apply, val_main_v41_apply, hi]

/-- The gathered value at (b, k): the field of site `k` at the state the word names. -/
theorem gathered_apply (cfg : IVec S256x512 32) (fld : FVec F S512x21 .f32) (b : Fin 256) (k : Fin 512)
    (h : (cfg (ix2 b k)).toNat < 21) :
    val_main_call0_v14 (F := F) cfg fld (ix3 b k (0 : Fin 1)) = fld (ix2 k ⟨(cfg (ix2 b k)).toNat, h⟩) := by
  unfold val_main_call0_v14
  refine (Cert.LibTakeAlong.gather_takeAlong_apply (N := 512) (C := 21) (R := 256) (by decide)
    gather_S512x21_S256x512x1x1_S256x512x1_n_1_0_1_1_3_11_wf (val_main_call0_v6 (F := F) fld)
    (val_main_call0_v5 (F := F) cfg) b k).trans ?_
  rw [operand_apply]
  refine congrArg (fun s => fld (ix2 k s)) (Fin.ext ?_)
  show min (val_main_call0_v5 (F := F) cfg (ix4 b k (0 : Fin 1) (0 : Fin 1))).toInt.toNat (21 - 1) = (cfg (ix2 b k)).toNat
  rw [word4_apply cfg b k h, toInt_eq_toNat_of_lt (by omega), Int.toNat_natCast]
  omega

/-- The value taken along the state axis at (b, k): in range, so the gathered field value and not the fill. -/
theorem taken_apply (cfg : IVec S256x512 32) (fld : FVec F S512x21 .f32) (b : Fin 256) (k : Fin 512)
    (h : (cfg (ix2 b k)).toNat < 21) :
    val_main_v44 (F := F) cfg fld (ix2 b k) = fld (ix2 k ⟨(cfg (ix2 b k)).toNat, h⟩) := by
  have hb := b.isLt
  have hk := k.isLt
  have hi : idx_main_v44 (ix2 b k) = ix3 b k (0 : Fin 1) := by
    funext a
    match a with
    | ⟨0, _⟩ => exact Fin.ext (by show (b.val * 512 + k.val) / 512 = b.val; omega)
    | ⟨1, _⟩ => exact Fin.ext (by show (b.val * 512 + k.val) / 1 % 512 = k.val; omega)
    | ⟨2, _⟩ => rfl
  rw [val_main_v44_apply, hi, val_main_v43_apply, inRange_apply cfg b k h, select_one, gathered_apply cfg fld b k h]

end Chain2

/-- The field values taken along the state axis and summed over the sites: the field energy, from zero. -/
theorem ref_field (cfg : IVec S256x512 32) (fld : FVec Ideal S512x21 .f32) (hr : Spin.InRange cfg) (b : Fin 256) :
    (val_main_v45 (F := Ideal) cfg fld : S256.Idx → EReal) (ix1 b) = 0 + Spin.fieldSum cfg fld b := by
  rw [val_main_v45_apply, val_main_cst_8_apply]
  show Ideal.ofBits .f32 0x00000000#32 + _ = _
  rw [Ideal.ofBits_zero_f32]
  unfold Spin.fieldSum
  refine congrArg (0 + ·) (Finset.sum_congr rfl fun k _ => ?_)
  have hi : idx_main_v45 (ix1 b) k = ix2 b k := by
    funext a; match a with | ⟨0, _⟩ => rfl | ⟨1, _⟩ => rfl
  rw [hi, taken_apply cfg fld b k (hr b k)]
  exact congrArg (fun s => fld (ix2 k s)) (Fin.ext (Nat.mod_eq_of_lt (hr b k)).symm)

end Cert.ReferenceIdeal.RefV
end
-- ==== Proof.RefValue.lean ====
import proofs.«410947_j90460601188757_3_alg».proof.Proof.RefPair
import proofs.«410947_j90460601188757_3_alg».proof.Proof.RefField

set_option maxRecDepth 16384

noncomputable section

open scoped BigOperators
open Idealize.ShloMosaic Idealize.ShloMosaic.TcCoe Idealize.SL.Sem Idealize.ShloMosaic.ValueIdx

namespace Cert.ReferenceIdeal.RefV
open Cert.ReferenceIdeal Cert.ReferenceIdeal.Gen Cert.ReferenceIdeal.ReadP

/-- The gathering program's result for sample `b`: minus (minus one half of the pair energy plus minus the field
    energy), over one — the last seven stages read at `b` over the two energies. -/
theorem ref_value (cfg : IVec S256x512 32) (J : FVec Ideal S512x512x21x21 .f32) (fld : FVec Ideal S512x21 .f32)
    (hr : Spin.InRange cfg) (b : Fin 256) :
    (val_main_v50 (F := Ideal) cfg J fld : S256.Idx → EReal) (ix1 b)
      = Spin.refForm (Spin.pairSum cfg J b) (Spin.fieldSum cfg fld b) := by
  rw [val_main_v50_apply, val_main_v48_apply, val_main_v47_apply, val_main_v46_apply, val_main_v40_apply,
    val_main_v39_apply, val_main_v49_apply, val_main_cst_7_apply, val_main_cst_9_apply]
  have hp := ref_pair cfg J hr b
  have hf := ref_field cfg fld hr b
  rw [hp, hf]
  rfl

end Cert.ReferenceIdeal.RefV
end
-- ==== Proof.PreDecode.lean ====
/-
  What the precondition says, entry by entry: the couplings and the field are real numbers (not ±∞), and every
  state of the configuration is one of 0, …, 20.

  The printed predicate is a conjunction of four `jnp.all`s: |J| < +∞, |field| < +∞, configuration ≥ 0 and
  configuration < 21 (both signed). Each `jnp.all` is an and-reduction into one bit, which is one exactly when
  every entry's bit is; an extended real whose absolute value is below +∞ is a real; and a 32-bit word that is
  signed-nonnegative and signed-below 21 is, read unsigned, below 21.
-/
import proofs.«410947_j90460601188757_3_alg».proof.Pre_finite_inputs
import proofs.«410947_j90460601188757_3_alg».proof.Proof.Gen.Pre_finite_inputs
import proofs.«410947_j90460601188757_3_alg».proof.Proof.Spec
import Idealize.ShloMosaic.Lib.ReduceAll
import Idealize.ShloMosaic.Lib.Affine
import Idealize.ShloMosaic.Lib.StableHlo.Predicate
import Idealize.ShloMosaic.Lib.Pipeline.Value

noncomputable section

namespace Cert.PreDecode

open Idealize.ShloMosaic Idealize.ShloMosaic.ValueIdx Cert.Pre_finite_inputs

instance : Subsingleton S_.Idx := ⟨fun a b => funext fun d => d.elim0⟩

/-- An extended real whose absolute value `max x (−x)` is below the f32 pattern of +∞ is a real number. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- A word that is signed-nonnegative and signed-below 21 is below 21 read unsigned. -/
theorem toNat_lt_of_signed (w : BitVec 32) (h0 : (0#32 : BitVec 32).toInt ≤ w.toInt) (h1 : w.toInt < (21#32 : BitVec 32).toInt) :
    w.toNat < 21 := by
  have e0 : (0#32 : BitVec 32).toInt = 0 := by decide
  have e1 : (21#32 : BitVec 32).toInt = 21 := by decide
  rw [e0] at h0; rw [e1] at h1
  have := BitVec.toInt_eq_toNat_cond w
  have hw := w.isLt
  split at this <;> omega

theorem decode (cfg : IVec S256x512 32) (J : FVec Ideal S512x512x21x21 .f32) (fld : FVec Ideal S512x21 .f32)
    (h : Cert.Pre_finite_inputs.fn (F := Ideal) cfg J fld = fun _ => 1#1) :
    (∀ i : S512x512x21x21.Idx, ∃ r : ℝ, J i = (r : EReal)) ∧ (∀ i : S512x21.Idx, ∃ r : ℝ, fld i = (r : EReal))
      ∧ Spin.InRange cfg := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun b s => ?_⟩
  · have e := Host.reduce_andi_all _ _ _ _ ix0 h1 i
    rw [cmpf_apply, broadcastInDim_apply _ _ _ i ix0 (fun a => a.elim0)] at e
    exact real_of_abs_lt (J i) e
  · have e := Host.reduce_andi_all _ _ _ _ ix0 h2 i
    rw [cmpf_apply, broadcastInDim_apply _ _ _ i ix0 (fun a => a.elim0)] at e
    exact real_of_abs_lt (fld i) e
  · have e3 := Host.reduce_andi_all _ _ _ _ ix0 h3 (ix2 b s)
    have e4 := Host.reduce_andi_all _ _ _ _ ix0 h4 (ix2 b s)
    have e3' : IntOp.cmpi .sge (cfg (ix2 b s)) (0#32) = 1#1 := by
      have := e3
      rwa [show cmpi CmpIPredicate.sge cfg (broadcastInDim S256x512 ![] Facts.bcast_S_S256x512 (constantI S_ 32 0#32)) (ix2 b s)
        = IntOp.cmpi .sge (cfg (ix2 b s)) (broadcastInDim S256x512 ![] Facts.bcast_S_S256x512 (constantI S_ 32 0#32) (ix2 b s)) from rfl,
        broadcastInDim_apply _ _ _ (ix2 b s) ix0 (fun a => a.elim0)] at this
    have e4' : IntOp.cmpi .slt (cfg (ix2 b s)) (21#32) = 1#1 := by
      have := e4
      rwa [show cmpi CmpIPredicate.slt cfg (broadcastInDim S256x512 ![] Facts.bcast_S_S256x512 (constantI S_ 32 21#32)) (ix2 b s)
        = IntOp.cmpi .slt (cfg (ix2 b s)) (broadcastInDim S256x512 ![] Facts.bcast_S_S256x512 (constantI S_ 32 21#32) (ix2 b s)) from rfl,
        broadcastInDim_apply _ _ _ (ix2 b s) ix0 (fun a => a.elim0)] at this
    exact toNat_lt_of_signed _ (IntOp.cmpi_sge.1 e3') (IntOp.cmpi_slt.1 e4')

end Cert.PreDecode

end
-- ==== Proof.Algebra.lean ====
/-
  The two identities that join the sides, over the extended reals.

  (1) The blocked bilinear form is the pair energy. Summing over the sixteen row blocks of 672 and over the four
  column blocks of 2688 is summing over all 10752 = 512 · 21 flattened positions, and a flattened position is a
  (site, state) pair; against the one-hot encoding only the sample's own state of each site survives, because
  x · 1 = x and x · 0 = 0 hold for every extended real. No finiteness is needed here.

  (2) One half of p plus f is minus (minus one half of p, plus minus f) over one — for REAL p and f: negation does
  not distribute over a sum of opposite infinities, so this is where the couplings and the field must be finite.
-/
import proofs.«410947_j90460601188757_3_alg».proof.Proof.Spec
import Mathlib.Algebra.BigOperators.Fin
import Mathlib.Logic.Equiv.Fin.Basic
import Mathlib.Data.Fintype.BigOperators

noncomputable section

open scoped BigOperators

namespace Cert.Spin

open Idealize.ShloMosaic Idealize.ShloMosaic.ValueIdx

/-- A sum over the sixteen row blocks and the rows inside a block is the sum over all flattened positions. -/
theorem sum_rows (f : Fin 10752 → EReal) : ∑ ib : Fin 16, ∑ k : Fin 672, f (rowAt ib k) = ∑ p : Fin 10752, f p := by
  rw [← Fintype.sum_prod_type' (f := fun ib k => f (rowAt ib k))]
  refine Fintype.sum_equiv (finProdFinEquiv : Fin 16 × Fin 672 ≃ Fin 10752) _ _ (fun x => ?_)
  congr 1
  refine Fin.ext ?_
  simp only [rowAt, finProdFinEquiv, Equiv.coe_fn_mk]
  omega

/-- The same for the four column blocks. -/
theorem sum_cols (f : Fin 10752 → EReal) : ∑ jb : Fin 4, ∑ r : Fin 2688, f (colAt jb r) = ∑ q : Fin 10752, f q := by
  rw [← Fintype.sum_prod_type' (f := fun jb r => f (colAt jb r))]
  refine Fintype.sum_equiv (finProdFinEquiv : Fin 4 × Fin 2688 ≃ Fin 10752) _ _ (fun x => ?_)
  congr 1
  refine Fin.ext ?_
  simp only [colAt, finProdFinEquiv, Equiv.coe_fn_mk]
  omega

/-- The flattened position of (site, state). -/
def flatPos (i : Fin 512) (k : Fin 21) : Fin 10752 := ⟨21 * i.val + k.val, by have := i.isLt; have := k.isLt; omega⟩

theorem siteOf_flatPos (i : Fin 512) (k : Fin 21) : siteOf (flatPos i k) = i := by
  refine Fin.ext ?_
  simp only [siteOf, flatPos]
  have := k.isLt
  omega

theorem stateOf_flatPos (i : Fin 512) (k : Fin 21) : stateOf (flatPos i k) = k := by
  refine Fin.ext ?_
  simp only [stateOf, flatPos]
  have := k.isLt
  omega

/-- A sum over the flattened positions is the sum over sites and states. -/
theorem sum_flat (g : Fin 10752 → EReal) : ∑ p : Fin 10752, g p = ∑ i : Fin 512, ∑ k : Fin 21, g (flatPos i k) := by
  rw [← Fintype.sum_prod_type' (f := fun i k => g (flatPos i k))]
  refine (Fintype.sum_equiv (finProdFinEquiv : Fin 512 × Fin 21 ≃ Fin 10752) _ _ (fun x => ?_)).symm
  congr 1
  refine Fin.ext ?_
  simp only [flatPos, finProdFinEquiv, Equiv.coe_fn_mk]
  omega

/-- Against a one-hot vector a sum keeps one term. -/
theorem sum_onehot (s : Fin 21) (f : Fin 21 → EReal) : ∑ k : Fin 21, f k * (if s = k then 1 else 0) = f s := by
  simp only [mul_ite, mul_one, mul_zero, Finset.sum_ite_eq, Finset.mem_univ, if_true]

/-- THE BLOCKED BILINEAR FORM IS THE PAIR ENERGY. -/
theorem kerPair_eq (cfg : IVec SCfg 32) (J : SJ.Idx → EReal) (b : Fin 256) :
    kerPair (flatJ J) (flatOh cfg) b = pairSum cfg J b := by
  unfold kerPair blockPair
  rw [sum_cols (fun q => (∑ ib : Fin 16, ∑ k : Fin 672, flatJ J (rowAt ib k) q * flatOh cfg (rowAt ib k) b) * flatOh cfg q b)]
  have hrows : ∀ q, (∑ ib : Fin 16, ∑ k : Fin 672, flatJ J (rowAt ib k) q * flatOh cfg (rowAt ib k) b)
      = ∑ i : Fin 512, ∑ k : Fin 21, flatJ J (flatPos i k) q * flatOh cfg (flatPos i k) b := fun q =>
    (sum_rows (fun p => flatJ J p q * flatOh cfg p b)).trans (sum_flat _)
  simp only [hrows]
  rw [sum_flat]
  simp only [flatJ, flatOh, siteOf_flatPos, stateOf_flatPos, sum_onehot]
  unfold pairSum
  rw [Finset.sum_comm]

/-- A finite sum of real numbers is a real number. -/
theorem exists_real_sum {ι : Type} (s : Finset ι) (f : ι → EReal) (h : ∀ i, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih
    obtain ⟨x, hx⟩ := h a
    exact ⟨x + r, by rw [Finset.sum_insert ha, hr, hx, EReal.coe_add]⟩

theorem pairSum_real (cfg : IVec SCfg 32) (J : SJ.Idx → EReal) (hJ : ∀ i, ∃ r : ℝ, J i = (r : EReal)) (b : Fin 256) :
    ∃ r : ℝ, pairSum cfg J b = (r : EReal) :=
  exists_real_sum _ _ fun i => exists_real_sum _ _ fun j => hJ _

theorem fieldSum_real (cfg : IVec SCfg 32) (fld : SFld.Idx → EReal) (hf : ∀ i, ∃ r : ℝ, fld i = (r : EReal)) (b : Fin 256) :
    ∃ r : ℝ, fieldSum cfg fld b = (r : EReal) :=
  exists_real_sum _ _ fun i => hf _

/-- The three float patterns of the two programs: 0.5, −0.5 and 1.0. -/
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-1 / 2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num

/-- ON REAL ENERGIES THE TWO COMBINATIONS AGREE. -/
theorem forms_eq (p f : ℝ) : kerForm (p : EReal) (f : EReal) = refForm (p : EReal) (f : EReal) := by
  unfold kerForm refForm
  rw [ofBits_half, ofBits_neg_half, ofBits_one, Ideal.div_coe (by norm_num : (1 : ℝ) ≠ 0)]
  simp only [zero_add]
  rw [← EReal.coe_mul, ← EReal.coe_mul, ← EReal.coe_neg, ← EReal.coe_add, ← EReal.coe_add, ← EReal.coe_neg, ← EReal.coe_mul]
  congr 1
  ring

end Cert.Spin

end
-- ==== Proof.Bridge.lean ====
import proofs.«410947_j90460601188757_3_alg».proof.Proof.KFinal
import proofs.«410947_j90460601188757_3_alg».proof.Proof.KHostPre
import proofs.«410947_j90460601188757_3_alg».proof.Proof.KTail
import proofs.«410947_j90460601188757_3_alg».proof.Proof.RefValue
import proofs.«410947_j90460601188757_3_alg».proof.Proof.PreDecode
import proofs.«410947_j90460601188757_3_alg».proof.Proof.Algebra

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Bridge
open Cert.KernelIdeal Cert.KernelIdeal.Gen Cert.KernelIdeal.KV
variable (m : (ℓ : Loc nD τ sig) → Buf (Elt Ideal) ℓ)

/-- THE TWO RESULTS ARE ONE FUNCTION OF THE ARGUMENTS. Under the precondition (finite couplings and field, states in
    range) the blocked program's result for sample `b` — one half of the four column blocks' shares plus the field
    energy — is the gathering program's: the shares add up to the blocked bilinear form of the flattened couplings
    and the one-hot configuration, which is the pair energy, and on real energies the two combinations agree. -/
theorem result_eq (c : Dev nD)
    (hpre : Cert.Pre_finite_inputs.fn (F := Ideal) (m ((c.tc : Thread nD τ).loc main_arg0)) (m ((c.tc : Thread nD τ).loc main_arg1))
      (m ((c.tc : Thread nD τ).loc main_arg2)) = fun _ => 1#1) (b : Fin 256) :
    (Pipeline.afterTail₀ cfgs (dats m) 0 (V0 m) [hostOps1, hostOps1_1, hostOps1_2] c main_v17 : S256.Idx → EReal) (ix1 b)
      = (Cert.ReferenceIdeal.ReadP.val_main_v50 (F := Ideal) (m ((c.tc : Thread nD τ).loc main_arg0))
          (m ((c.tc : Thread nD τ).loc main_arg1)) (m ((c.tc : Thread nD τ).loc main_arg2)) : S256.Idx → EReal) (ix1 b) := by
  obtain ⟨hJ, hf, hr⟩ := Cert.PreDecode.decode _ _ _ hpre
  rw [tail_value m c hr (V0_clip m c hr) b, Cert.ReferenceIdeal.RefV.ref_value _ _ _ hr b]
  have hshare : ∀ jb : Fin 4, ((dats m 0 c).arrAt 2 cfg0.N : S4x1x256.Idx → EReal) (ix3 jb 0 b)
      = Spin.blockPair (Spin.flatJ (m ((c.tc : Thread nD τ).loc main_arg1))) (Spin.flatOh (m ((c.tc : Thread nD τ).loc main_arg0))) jb b := by
    intro jb
    rw [region_value m c jb b]
    unfold Spin.blockPair
    simp only [Jm_eq, oh_eq m c hr]
  simp only [hshare]
  rw [show (∑ jb : Fin 4, Spin.blockPair (Spin.flatJ (m ((c.tc : Thread nD τ).loc main_arg1)))
      (Spin.flatOh (m ((c.tc : Thread nD τ).loc main_arg0))) jb b)
      = Spin.kerPair (Spin.flatJ (m ((c.tc : Thread nD τ).loc main_arg1))) (Spin.flatOh (m ((c.tc : Thread nD τ).loc main_arg0))) b from rfl,
    Spin.kerPair_eq]
  obtain ⟨p, hp⟩ := Spin.pairSum_real (m ((c.tc : Thread nD τ).loc main_arg0)) (m ((c.tc : Thread nD τ).loc main_arg1)) hJ b
  obtain ⟨f, hf'⟩ := Spin.fieldSum_real (m ((c.tc : Thread nD τ).loc main_arg0)) (m ((c.tc : Thread nD τ).loc main_arg2)) hf b
  rw [hp, hf']
  exact Spin.forms_eq p f

end Cert.Bridge
end
-- ==== Proof.lean ====
/-
  The certificate of the spin-glass energy kernel against its gathering reference, over the extended reals.

  Both programs take a configuration (256 samples of 512 sites, states as 32-bit integers), couplings
  J[512, 512, 21, 21] and a field[512, 21], and return for each sample one half of the pair energy
  Σ_{i,j} J[i, j, s_i, s_j] plus the field energy Σ_i field[i, s_i]. The reference gathers the couplings at the
  states; the kernel flattens (site, state) to one axis of length 10752, encodes each sample one-hot, and computes the
  bilinear form one-hotᵀ · J · one-hot in a grid of four column blocks by sixteen row blocks, accumulating the matrix
  product of a column block over its row blocks in a scratch buffer and closing each column block with a product
  against the block's one-hot rows summed over the block.

  The precondition asks for finite couplings and field and for states in {0, …, 20}: outside that range the
  reference's indexing wraps negative states and fills out-of-range field reads with NaN while the kernel clips, and
  the two results differ. Under it the kernel's clipping is the identity, a sum against a one-hot vector keeps one
  term, and the two ways of combining the energies agree on real numbers.

  The three frames: the two kernels' are the generated frame certificates; the reference's is its run with the
  result dropped. The idealization rewrote nothing, so `preserves` is trivial.
-/
import proofs.«410947_j90460601188757_3_alg».proof.Defs
import proofs.«410947_j90460601188757_3_alg».proof.Proof.Gen.Kernel
import proofs.«410947_j90460601188757_3_alg».proof.Proof.Gen.Kernel.Frame
import proofs.«410947_j90460601188757_3_alg».proof.Proof.Gen.KernelIdeal
import proofs.«410947_j90460601188757_3_alg».proof.Proof.Gen.KernelIdeal.Frame
import proofs.«410947_j90460601188757_3_alg».proof.Proof.Gen.ReferenceIdeal
import proofs.«410947_j90460601188757_3_alg».proof.Proof.Gen.Pre_finite_inputs
import proofs.«410947_j90460601188757_3_alg».proof.Proof.RefRun
import proofs.«410947_j90460601188757_3_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The kernel's run with its result named: what the host operations after the launch leave in it; the arguments
    unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v17)
            = Pipeline.afterTail₀ Cert.KernelIdeal.cfgs (Cert.KernelIdeal.Gen.dats m) 0 (Cert.KernelIdeal.Gen.V0 m)
                [Cert.KernelIdeal.Gen.hostOps1, Cert.KernelIdeal.Gen.hostOps1_1, Cert.KernelIdeal.Gen.hostOps1_2] c Cert.KernelIdeal.main_v17
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c =>
      ⟨(h c).2 Cert.KernelIdeal.main_v17 (Pipeline.mem_restRefs_of Cert.KernelIdeal.main_v17 (by decide) (by decide)),
       ((h c).2 Cert.KernelIdeal.main_arg0 (Pipeline.mem_restRefs_of Cert.KernelIdeal.main_arg0 (by decide) (by decide))).trans
         (Cert.KernelIdeal.Gen.W_main_arg0 m (Cert.KernelIdeal.Gen.dats m) c),
       ((h c).2 Cert.KernelIdeal.main_arg1 (Pipeline.mem_restRefs_of Cert.KernelIdeal.main_arg1 (by decide) (by decide))).trans
         (Cert.KernelIdeal.Gen.W_main_arg1 m (Cert.KernelIdeal.Gen.dats m) c),
       ((h c).2 Cert.KernelIdeal.main_arg2 (Pipeline.mem_restRefs_of Cert.KernelIdeal.main_arg2 (by decide) (by decide))).trans
         (Cert.KernelIdeal.Gen.W_main_arg2 m (Cert.KernelIdeal.Gen.dats m) c)⟩)
    (Cert.KernelIdeal.Gen.run_main m ρ)

/-- Both programs run, and from memories that agree on the arguments they end with the same result: entry by
    entry the kernel's result is the reference's last stage at the same arguments. -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m)
      [Cert.KernelIdeal.Gen.hostOps1, Cert.KernelIdeal.Gen.hostOps1_1, Cert.KernelIdeal.Gen.hostOps1_2] c Cert.KernelIdeal.main_v17,
    kernel_run m ρ, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2.1, (hagree c).2.2]
  funext y
  obtain ⟨b, rfl⟩ : ∃ b : Fin 256, y = ix1 b := ⟨y 0, eq_ix1 y⟩
  exact (Cert.Bridge.result_eq m c (hpre c) b).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
